-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S128 .f32) (main_arg4 : FVec F S128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S128x128 : Shape := ⟨2, ![128, 128]⟩
abbrev S1x128 : Shape := ⟨2, ![1, 128]⟩
abbrev S8000x128 : Shape := ⟨2, ![8000, 128]⟩
abbrev S50000 : Shape := ⟨1, ![50000]⟩
abbrev S50000x1 : Shape := ⟨2, ![50000, 1]⟩

abbrev nBuf : Space → Nat
  | .hbm => 70
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S800000x128, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S_, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S_, .f32⟩
  | .hbm, ⟨59, _⟩ => ⟨S800000, .f32⟩
  | .hbm, ⟨60, _⟩ => ⟨S_, .f32⟩
  | .hbm, ⟨61, _⟩ => ⟨S50000, .f32⟩
  | .hbm, ⟨62, _⟩ => ⟨S800000x1, .i32⟩
  | .hbm, ⟨63, _⟩ => ⟨S50000, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S50000x1, .f32⟩
  | .hbm, ⟨68, _⟩ => ⟨S50000x128, .f32⟩
  | .hbm, ⟨69, _⟩ => ⟨S50000x128, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S8000x128, .f32⟩
  | .local _ .vmem, ⟨8, _⟩ => ⟨S8000x128, .f32⟩
  | .local _ .vmem, ⟨9, _⟩ => ⟨S1x128, .f32⟩
  | .local _ .vmem, ⟨10, _⟩ => ⟨S1x128, .f32⟩
  | .local _ .vmem, ⟨11, _⟩ => ⟨S8000x128, .f32⟩
  | .local _ .vmem, ⟨12, _⟩ => ⟨S8000x128, .f32⟩
  | .local _ .vmem, ⟨13, _⟩ => ⟨S1x128, .f32⟩
  | .local _ .vmem, ⟨14, _⟩ => ⟨S1x128, .f32⟩
  | .local _ .vmem, ⟨15, _⟩ => ⟨S8000x128, .f32⟩
  | .local _ .vmem, ⟨16, _⟩ => ⟨S8000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25_0 : Ref sig .tc := ⟨.hbm, 35, rfl⟩
abbrev main_v25_1 : Ref sig .tc := ⟨.hbm, 36, rfl⟩
abbrev main_v25_2 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_1_0 : S2x800000.Slices ![1, 0] S1x800000
  shapeCasts_S1x800000_S800000 : S1x800000.ShapeCasts S800000
  slices_S2x800000_S1x800000_0_0 : S2x800000.Slices ![0, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S8000x128 : S1x128.Broadcasts S8000x128
  reduces_S8000x128_S128 : S8000x128.Reduces [0] S128
  bcast_S_S1x128 : S_.BroadcastsInDim S1x128 (![] : Fin 0 → Fin S1x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .f32 = 32 ∨ (Rect.block (s := S800000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S800000x128.size a
  hwx0_5 : ∀ i : grid0.Coords, EltTy.bits .f32 = 32 ∨ (Rect.block (s := S800000x128) S8000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S800000x128.size a
  hwx1_3 : ∀ i : grid1.Coords, EltTy.bits .f32 = 32 ∨ (Rect.block (s := S800000x128) S8000x128.size (cc1_transform_3 i) (hinb1_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_v10) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25_0) S8000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v25_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v25_0) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S256x128 : Shape := ⟨2, ![256, 128]⟩
abbrev S1x128 : Shape := ⟨2, ![1, 128]⟩
abbrev S50000 : Shape := ⟨1, ![50000]⟩
abbrev S50000x1 : Shape := ⟨2, ![50000, 1]⟩

abbrev nBuf : Space → Nat
  | .hbm => 83
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S800000x256, .f32⟩
  | .hbm, ⟨29, _⟩ => ⟨S256x128, .f32⟩
  | .hbm, ⟨30, _⟩ => ⟨S800000x128, .f32⟩
  | .hbm, ⟨31, _⟩ => ⟨S1x128, .f32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S128, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S1x128, .f32⟩
  | .hbm, ⟨40, _⟩ => ⟨S800000x128, .f32⟩
  | .hbm, ⟨41, _⟩ => ⟨S800000x128, .f32⟩
  | .hbm, ⟨42, _⟩ => ⟨S800000x128, .f32⟩
  | .hbm, ⟨43, _⟩ => ⟨S_, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S800000x128, .f32⟩
  | .hbm, ⟨50, _⟩ => ⟨S800000x128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S800000x128, .f32⟩
  | .hbm, ⟨57, _⟩ => ⟨S800000x128, .f32⟩
  | .hbm, ⟨58, _⟩ => ⟨S1x128, .f32⟩
  | .hbm, ⟨59, _⟩ => ⟨S800000x128, .f32⟩
  | .hbm, ⟨60, _⟩ => ⟨S800000x128, .f32⟩
  | .hbm, ⟨61, _⟩ => ⟨S1x128, .f32⟩
  | .hbm, ⟨62, _⟩ => ⟨S800000x128, .f32⟩
  | .hbm, ⟨63, _⟩ => ⟨S800000x128, .f32⟩
  | .hbm, ⟨64, _⟩ => ⟨S_, .f32⟩
  | .hbm, ⟨65, _⟩ => ⟨S800000x128, .f32⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S_, .f32⟩
  | .hbm, ⟨72, _⟩ => ⟨S800000, .f32⟩
  | .hbm, ⟨73, _⟩ => ⟨S_, .f32⟩
  | .hbm, ⟨74, _⟩ => ⟨S50000, .f32⟩
  | .hbm, ⟨75, _⟩ => ⟨S800000x1, .i32⟩
  | .hbm, ⟨76, _⟩ => ⟨S50000, .f32⟩
  | .hbm, ⟨77, _⟩ => ⟨S_, .f32⟩
  | .hbm, ⟨78, _⟩ => ⟨S50000, .f32⟩
  | .hbm, ⟨79, _⟩ => ⟨S50000, .f32⟩
  | .hbm, ⟨80, _⟩ => ⟨S50000x1, .f32⟩
  | .hbm, ⟨81, _⟩ => ⟨S50000x128, .f32⟩
  | .hbm, ⟨82, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_call0_cst : Ref sig .tc := ⟨.hbm, 64, rfl⟩
abbrev main_call0_v0 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  transposes_S128x256_S256x128_1_0 : S128x256.Transposes [1, 0] S256x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  reducesTo_S800000x128_S128_d0 : S800000x128.ReducesTo [0] S128
  h_S_ : 0 < S_.numel
  bcast_S_S128 : S_.BroadcastsInDim S128 (![] : Fin 0 → Fin S128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.Spec.lean ====
/-
  The mathematics both programs compute, on the exact instance, stated once over literal shapes and free of either
  program.  For E = 800000 edges and 128 channels:

    lin    : an edge's pre-activation — two 128-term contractions (the target node's row against the first half of the
             weights, the source node's row against the second half) plus the bias;
    colsum, colsumsq : a channel's sum, and sum of squares, over all edges;
    act    : a channel-wise affine map of the pre-activation followed by the clamp at zero.
-/
import Idealize.ShloMosaic.PureOps.Ideal
import Idealize.ShloMosaic.Lib.ValueIdx

noncomputable section

namespace Cert.Spec

open Idealize.ShloMosaic Idealize.ShloMosaic.ValueIdx

/-- edges × channels -/
abbrev SE : Shape := ⟨2, ![800000, 128]⟩
/-- a 128 × 128 weight half, laid out contraction-coordinate first -/
abbrev SW : Shape := ⟨2, ![128, 128]⟩
/-- one row of per-channel values -/
abbrev SR : Shape := ⟨2, ![1, 128]⟩

/-- The pre-activation of edge `e` in channel `j`. -/
def linAt (a b : FVec Ideal SE .f32) (wi wj : FVec Ideal SW .f32) (bb : FVec Ideal SR .f32) (e : Fin 800000) (j : Fin 128) : EReal :=
  ((∑ k : Fin 128, a (ix2 e k) * wi (ix2 k j)) + (∑ k : Fin 128, b (ix2 e k) * wj (ix2 k j))) + bb (ix2 (0 : Fin 1) j)

/-- The pre-activations as one array. -/
def lin (a b : FVec Ideal SE .f32) (wi wj : FVec Ideal SW .f32) (bb : FVec Ideal SR .f32) : FVec Ideal SE .f32 :=
  fun i => linAt a b wi wj bb ⟨(i 0).val, idx2_lt0 i⟩ ⟨(i 1).val, idx2_lt1 i⟩

theorem lin_apply (a b : FVec Ideal SE .f32) (wi wj : FVec Ideal SW .f32) (bb : FVec Ideal SR .f32) (e : Fin 800000) (j : Fin 128) :
    lin a b wi wj bb (ix2 e j) = linAt a b wi wj bb e j := rfl

/-- A channel's sum over all edges, as a row. -/
def colsum (h : FVec Ideal SE .f32) : FVec Ideal SR .f32 :=
  fun i => ∑ e : Fin 800000, h (ix2 e (⟨(i 1).val, idx2_lt1 i⟩ : Fin 128))

theorem colsum_apply (h : FVec Ideal SE .f32) (u : Fin 1) (j : Fin 128) : colsum h (ix2 u j) = ∑ e : Fin 800000, h (ix2 e j) := rfl

/-- A channel's sum of squares over all edges, as a row. -/
def colsumsq (h : FVec Ideal SE .f32) : FVec Ideal SR .f32 :=
  fun i => ∑ e : Fin 800000, h (ix2 e (⟨(i 1).val, idx2_lt1 i⟩ : Fin 128)) * h (ix2 e (⟨(i 1).val, idx2_lt1 i⟩ : Fin 128))

theorem colsumsq_apply (h : FVec Ideal SE .f32) (u : Fin 1) (j : Fin 128) :
    colsumsq h (ix2 u j) = ∑ e : Fin 800000, h (ix2 e j) * h (ix2 e j) := rfl

/-- The activation: scale and shift per channel, then the clamp at zero. -/
def act (h : FVec Ideal SE .f32) (sc sh : FVec Ideal SR .f32) : FVec Ideal SE .f32 :=
  fun i => max (h i * sc (ix2 (0 : Fin 1) (⟨(i 1).val, idx2_lt1 i⟩ : Fin 128)) + sh (ix2 (0 : Fin 1) (⟨(i 1).val, idx2_lt1 i⟩ : Fin 128)))
    (Ideal.ofBits .f32 0x00000000#32)

theorem act_apply (h : FVec Ideal SE .f32) (sc sh : FVec Ideal SR .f32) (e : Fin 800000) (j : Fin 128) :
    act h sc sh (ix2 e j) = max (h (ix2 e j) * sc (ix2 (0 : Fin 1) j) + sh (ix2 (0 : Fin 1) j)) (Ideal.ofBits .f32 0x00000000#32) := rfl

/-! ## The two programs' activations at an entry, as formulas of the same six arrays

`a`, `b` are the gathered rows of the target and the source node of every edge; `w` the 128 × 256 weights (channel
first); `b1`, `g`, `bt` the bias, the normalisation's gain and its offset.  The kernel's formula contracts the two halves
of the weights apart and normalises through  E[h²] − (E h)²  and a folded scale and shift; the reference's contracts the
joined 256-term row at once and normalises through  E[(h − E h)²]  and  (h − E h) · r · g + bt. -/

/-- 128 × 256, 128 -/
abbrev SW2 : Shape := ⟨2, ![128, 256]⟩
abbrev SV : Shape := ⟨1, ![128]⟩

/-- the edge count and the variance offset, as the programs spell them -/
abbrev cnt : EReal := Ideal.ofBits .f32 0x49435000#32
abbrev eps : EReal := Ideal.ofBits .f32 0x3727C5AC#32
abbrev zero : EReal := Ideal.ofBits .f32 0x00000000#32

section formulas
variable (a b : FVec Ideal SE .f32) (w : FVec Ideal SW2 .f32) (b1 g bt : FVec Ideal SV .f32)

/-- The kernel's pre-activation: the two halves contracted apart. -/
def klinAt (e : Fin 800000) (j : Fin 128) : EReal :=
  ((∑ k : Fin 128, a (ix2 e k) * w (ix2 j (⟨k.val, by omega⟩ : Fin 256)))
    + (∑ k : Fin 128, b (ix2 e k) * w (ix2 j (⟨128 + k.val, by omega⟩ : Fin 256)))) + b1 (ix1 j)
def kmeanAt (j : Fin 128) : EReal := Ideal.div (∑ e : Fin 800000, klinAt a b w b1 e j) cnt
def kvarAt (j : Fin 128) : EReal :=
  Ideal.div (∑ e : Fin 800000, klinAt a b w b1 e j * klinAt a b w b1 e j) cnt - kmeanAt a b w b1 j * kmeanAt a b w b1 j
def kscaleAt (j : Fin 128) : EReal := g (ix1 j) * Ideal.rsqrt (kvarAt a b w b1 j + eps)
def kshiftAt (j : Fin 128) : EReal := bt (ix1 j) - kmeanAt a b w b1 j * kscaleAt a b w b1 g j
/-- The kernel's activation at `(e, j)`. -/
def kerAt (e : Fin 800000) (j : Fin 128) : EReal :=
  max (klinAt a b w b1 e j * kscaleAt a b w b1 g j + kshiftAt a b w b1 g bt j) zero

/-- The joined row of an edge: the target's 128 entries, then the source's. -/
def catAt (e : Fin 800000) (k : Fin 256) : EReal :=
  if h : k.val < 128 then a (ix2 e (⟨k.val, h⟩ : Fin 128)) else b (ix2 e (⟨k.val - 128, by omega⟩ : Fin 128))
/-- The reference's pre-activation: one 256-term contraction. -/
def rlinAt (e : Fin 800000) (j : Fin 128) : EReal := (∑ k : Fin 256, catAt a b e k * w (ix2 j k)) + b1 (ix1 j)
def rmeanAt (j : Fin 128) : EReal := Ideal.div (zero + ∑ e : Fin 800000, rlinAt a b w b1 e j) cnt
def rvarAt (j : Fin 128) : EReal :=
  Ideal.div (zero + ∑ e : Fin 800000, (rlinAt a b w b1 e j - rmeanAt a b w b1 j) * (rlinAt a b w b1 e j - rmeanAt a b w b1 j)) cnt
/-- The reference's activation at `(e, j)`. -/
def refAt (e : Fin 800000) (j : Fin 128) : EReal :=
  max ((((rlinAt a b w b1 e j - rmeanAt a b w b1 j) * Ideal.rsqrt (rvarAt a b w b1 j + eps)) * g (ix1 j)) + bt (ix1 j)) zero

end formulas

end Cert.Spec

end
-- ==== Proof.KTerms.lean ====
/-
  The kernel program's host operations, and what its two regions compute, as pure terms of the six arguments
  (exact instance): the gathers of the target and source rows, the two transposed halves of the weights, the three
  vectors as rows; the pre-activations; the mean, scale and shift rows; the activation; and the segment mean.
-/
import proofs.«145881_j9715216023597_1_alg».proof.KernelIdeal
import proofs.«145881_j9715216023597_1_alg».proof.Proof.Gen.KernelIdeal
import proofs.«145881_j9715216023597_1_alg».proof.Proof.Spec
import Idealize.ShloMosaic.Lib.ValueIdx

noncomputable section

namespace Cert.KernelIdeal.Fold

open Idealize.ShloMosaic Idealize.ShloMosaic.TcCoe Idealize.SL.Sem Idealize.ShloMosaic.ValueIdx
open Cert.KernelIdeal Cert.KernelIdeal.Gen

/-! ## The host operations as pure terms -/

/-- Row 1 of the edge list (each edge's target node) and row 0 (its source node), as vectors. -/
def dstRow (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000
def srcRow (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000
/-- A vector of node numbers as a column of start indices, a negative number wrapped once by the node count. -/
def wrapIdx (r : (⟨S800000, .i32⟩ : BufTy).Contents (Elt Ideal)) : (⟨S800000x1, .i32⟩ : BufTy).Contents (Elt Ideal) :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)
/-- The node features' rows at those start indices. -/
def gatherRows (x : FVec Ideal S50000x128 .f32) (r : (⟨S800000, .i32⟩ : BufTy).Contents (Elt Ideal)) : FVec Ideal S800000x128 .f32 :=
  Host.gather gather_S50000x128_S800000x1_S800000x128_1_0_n_n_0_1_1128 x (wrapIdx r)
/-- The two halves of the weights, transposed (contraction coordinate first). -/
def wHalfI (w : FVec Ideal S128x256 .f32) : FVec Ideal S128x128 .f32 :=
  transpose S128x128 [1, 0] (extractStridedSlice S128x128 ![0, 0] w slices_S128x256_S128x128_0_0) transposes_S128x128_S128x128_1_0
def wHalfJ (w : FVec Ideal S128x256 .f32) : FVec Ideal S128x128 .f32 :=
  transpose S128x128 [1, 0] (extractStridedSlice S128x128 ![0, 128] w slices_S128x256_S128x128_0_128) transposes_S128x128_S128x128_1_0
/-- A 128-vector as a row. -/
def asRow (v : FVec Ideal S128 .f32) : FVec Ideal S1x128 .f32 := shapeCast _ v shapeCasts_S128_S1x128
/-- A literal copied along a row. -/
def splat (b : BitVec 32) : FVec Ideal S1x128 .f32 := broadcastInDim S1x128 ![] bcast_S_S1x128 (constant S_ .f32 b)

/-- The pre-activations of all edges. -/
def preact (x : FVec Ideal S50000x128 .f32) (ei : (⟨S2x800000, .i32⟩ : BufTy).Contents (Elt Ideal)) (w : FVec Ideal S128x256 .f32)
    (b1 : FVec Ideal S128 .f32) : FVec Ideal S800000x128 .f32 :=
  Cert.Spec.lin (gatherRows x (dstRow ei)) (gatherRows x (srcRow ei)) (wHalfI w) (wHalfJ w) (asRow b1)
/-- The row of channel means. -/
def mean (h : FVec Ideal S800000x128 .f32) : FVec Ideal S1x128 .f32 := Host.divf (Cert.Spec.colsum h) (splat 0x49435000#32)
/-- The scale row: the gain over the root of variance plus offset, the variance as mean of squares minus squared mean. -/
def scale (h : FVec Ideal S800000x128 .f32) (g : FVec Ideal S128 .f32) : FVec Ideal S1x128 .f32 :=
  mulf (asRow g) (Host.rsqrt (addf (subf (Host.divf (Cert.Spec.colsumsq h) (splat 0x49435000#32)) (mulf (mean h) (mean h))) (splat 0x3727C5AC#32)))
/-- The shift row. -/
def shift (h : FVec Ideal S800000x128 .f32) (g bt : FVec Ideal S128 .f32) : FVec Ideal S1x128 .f32 :=
  subf (asRow bt) (mulf (mean h) (scale h g))
/-- The activation of all edges. -/
def actK (x : FVec Ideal S50000x128 .f32) (ei : (⟨S2x800000, .i32⟩ : BufTy).Contents (Elt Ideal)) (w : FVec Ideal S128x256 .f32)
    (b1 g bt : FVec Ideal S128 .f32) : FVec Ideal S800000x128 .f32 :=
  Cert.Spec.act (preact x ei w b1) (scale (preact x ei w b1) g) (shift (preact x ei w b1) g bt)
/-- The segment mean of an edge array over the target nodes: the per-node sums over the per-node edge counts clamped
    below at one. -/
def tail (ei : (⟨S2x800000, .i32⟩ : BufTy).Contents (Elt Ideal)) (a : FVec Ideal S800000x128 .f32) : FVec Ideal S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 (dstRow ei)) a)
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 (dstRow ei))
            (broadcastInDim S800000 ![] bcast_S_S800000 (constant S_ .f32 0x3F800000#32)))
          (broadcastInDim S50000 ![] bcast_S_S50000 (constant S_ .f32 0x3F800000#32)))))

end Cert.KernelIdeal.Fold

end
-- ==== Proof.R0Defs.lean ====
/-
  Region 0 (the matrix products and the running statistics): names, at their literal types, for the five arrays the
  region reads, the three arrays it leaves, and the array of pre-activations of what it reads.
-/
import proofs.«145881_j9715216023597_1_alg».proof.Proof.Gen.KernelIdeal.Frame
import proofs.«145881_j9715216023597_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The region's five input arrays as it finds them, at their literal types. -/
abbrev aXi (c : Dev nD) : FVec Ideal Cert.Spec.SE .f32 := V c main_v10
abbrev aXj (c : Dev nD) : FVec Ideal Cert.Spec.SE .f32 := V c main_v17
abbrev aWi (c : Dev nD) : FVec Ideal Cert.Spec.SW .f32 := V c main_v19
abbrev aWj (c : Dev nD) : FVec Ideal Cert.Spec.SW .f32 := V c main_v21
abbrev aB (c : Dev nD) : FVec Ideal Cert.Spec.SR .f32 := V c main_v22

/-- The pre-activations of all edges, of the arrays the region finds. -/
abbrev H (c : Dev nD) : FVec Ideal Cert.Spec.SE .f32 :=
  Cert.Spec.lin (aXi V c) (aXj V c) (aWi V c) (aWj V c) (aB V c)

/-- The three output arrays after the region, at their literal types. -/
abbrev oH (c : Dev nD) : FVec Ideal Cert.Spec.SE .f32 := (dat0 (F := Ideal) V c).arrAt 5 cfg0.N
abbrev oS (c : Dev nD) : FVec Ideal Cert.Spec.SR .f32 := (dat0 (F := Ideal) V c).arrAt 6 cfg0.N
abbrev oQ (c : Dev nD) : FVec Ideal Cert.Spec.SR .f32 := (dat0 (F := Ideal) V c).arrAt 7 cfg0.N

end Cert.KernelIdeal.Val0

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.R0Pay.lean ====
/-
  Region 0's body arithmetic at an entry of a block (exact instance).  From the blocks x₀, x₁ (8000 rows of the two
  gathered operands), the two weight halves and the bias row, the body forms
      p(r, c) = Σ_k x₀(r, k)·wi(k, c) + Σ_k x₁(r, k)·wj(k, c) + bias(0, c)
  (the changes of float format are the identity on the exact instance, each matrix product into a zero accumulator is
  the plain sum, the bias row is copied down the block).
-/
import proofs.«145881_j9715216023597_1_alg».proof.Proof.Gen.KernelIdeal.Frame
import proofs.«145881_j9715216023597_1_alg».proof.Proof.Spec
import Idealize.ShloMosaic.Lib.Pipeline.Value
import Idealize.ShloMosaic.Lib.ValueIdx
import Idealize.ShloMosaic.PureOps.Ideal.Laws
import proofs.«145881_j9715216023597_1_alg».proof.Proof.LibPlainMatmul
import Idealize.ShloMosaic.Lib.ValueLayout
set_option maxRecDepth 16384

noncomputable section

namespace Cert.KernelIdeal.Val0

open Idealize.ShloMosaic Idealize.ShloMosaic.TcCoe Idealize.SL.Sem Idealize.ShloMosaic.ValueIdx
open Cert.KernelIdeal Cert.KernelIdeal.Gen

/-- A block operand of a matrix product, after the identity reshape and the change of float format (both the identity on
    the exact instance), contracted against a weight half treated the same way, into a zero accumulator: the plain sum. -/
private theorem product_apply (x : Vec Ideal S8000x128 .f32) (w : Vec Ideal S128x128 .f32) (r : Fin 8000) (c : Fin 128) :
    matmul (F := Ideal) dot_S8000x128_S128x128_S8000x128_1_0_0_1_n_n none
        (truncf .bf16 (shapeCast S8000x128 x shapeCasts_S8000x128_S8000x128) bitsLt_bf16_f32)
        (truncf .bf16 (shapeCast S128x128 w shapeCasts_S128x128_S128x128) bitsLt_bf16_f32)
        (constant S8000x128 .f32 0x00000000#32) (ix2 r c)
      = ∑ k : Fin 128, x (ix2 r k) * w (ix2 k c) := by
  -- the printed contraction record is the plain one: left columns against right rows, no batch axis
  refine (LibPlainMatmul.matmul_plain_zero_apply (m := 8000) (k := 128) (n := 128) none
    (truncf .bf16 (shapeCast S8000x128 x shapeCasts_S8000x128_S8000x128) bitsLt_bf16_f32)
    (truncf .bf16 (shapeCast S128x128 w shapeCasts_S128x128_S128x128) bitsLt_bf16_f32) r c).trans ?_
  refine Finset.sum_congr rfl fun k _ => ?_
  rw [truncf_apply, truncf_apply, shapeCast_self, shapeCast_self]

/-- The block of pre-activations at `(r, c)`. -/
theorem pay4_apply (v3 v6 : Vec Ideal S8000x128 .f32) (v9 v12 : Vec Ideal S128x128 .f32) (v18 : Vec Ideal S1x128 .f32)
    (r : Fin 8000) (c : Fin 128) :
    k0_pay4 (F := Ideal) v3 v6 v9 v12 v18 (ix2 r c)
      = ((∑ k : Fin 128, v3 (ix2 r k) * v9 (ix2 k c)) + (∑ k : Fin 128, v6 (ix2 r k) * v12 (ix2 k c))) + v18 (ix2 (0 : Fin 1) c) := by
  unfold k0_pay4
  -- the outer sum and the inner sum are entrywise
  refine (addf_apply _ _ (ix2 r c)).trans ?_
  refine congrArg₂ (· + ·) ((addf_apply _ _ (ix2 r c)).trans (congrArg₂ (· + ·) (product_apply v3 v9 r c) (product_apply v6 v12 r c))) ?_
  -- the bias row copied down the block
  refine (broadcastTo_1b_ab_apply _ broadcasts_S1x128_S8000x128 r c).trans ?_
  rw [shapeCast_self]

end Cert.KernelIdeal.Val0

end
-- ==== Proof.R0H.lean ====
/-
  Region 0's first output: the array of pre-activations.  Point t's block of the output is the body's block of
  pre-activations of rows 8000·t … 8000·t + 7999 of the two gathered operands (every window's block index is (t, 0) or
  (0, 0)), which is block t of the whole array of pre-activations; the 100 blocks tile the array.
-/
import proofs.«145881_j9715216023597_1_alg».proof.Proof.Gen.KernelIdeal.Frame
import proofs.«145881_j9715216023597_1_alg».proof.Proof.Spec
import Idealize.ShloMosaic.Lib.Pipeline.Value
import Idealize.ShloMosaic.Lib.ValueIdx
import Idealize.ShloMosaic.PureOps.Ideal.Laws
import proofs.«145881_j9715216023597_1_alg».proof.Proof.R0Defs
import proofs.«145881_j9715216023597_1_alg».proof.Proof.R0Pay
set_option maxRecDepth 16384

noncomputable section

namespace Cert.KernelIdeal.Val0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The body's one store to the first output starts at the block's origin, however the two zeros are spelt. -/
theorem zero_origin : (![0, 0] : Fin 2 → Nat) = fun _ => 0 := funext fun a => by fin_cases a <;> rfl

/-- At the first point (where the body also clears the two running rows) the first output's buffer is left holding
    the block of pre-activations of the five input blocks: its one store covers the block, and each load reads a whole
    input buffer. -/
theorem block_first (c : Dev nD) (i : grid0.Coords) (a1 : Memref sig .tc .vmem S8000x128 .f32) (h1 : a1.IsWhole) (a2 : Memref sig .tc .vmem S8000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S8000x128 .f32) (h6 : a6.IsWhole)
    (a7 : Memref sig .tc .vmem S1x128 .f32) (h7 : a7.IsWhole) (a8 : Memref sig .tc .vmem S1x128 .f32) (h8 : a8.IsWhole) (hc : cond0_0 i)
    (x0 x1 : Vec Ideal S8000x128 .f32) (x2 x3 : Vec Ideal S128x128 .f32) (x4 : Vec Ideal S1x128 .f32) :
    out0_A_5 (F := Ideal) c i a1 h1 a2 h2 a3 h3 a4 h4 a5 h5 a6 h6 a7 h7 a8 h8 hc x0 x1 x2 x3 x4 = k0_pay4 (F := Ideal) x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  rw [View.canon_unit_zero zero_origin]
  simp only [View.readAt_eq_ld, h1.read_unread, h2.read_unread, h3.read_unread, h4.read_unread, h5.read_unread,
    View.ld_unit_zero (S := S8000x128) zero_origin, View.ld_unit_zero (S := S128x128) zero_origin,
    View.ld_unit_zero (S := S1x128) zero_origin]

/-- At every later point the same: the running rows the body also reads there do not enter the first output. -/
theorem block_later (c : Dev nD) (i : grid0.Coords) (a1 : Memref sig .tc .vmem S8000x128 .f32) (h1 : a1.IsWhole) (a2 : Memref sig .tc .vmem S8000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S8000x128 .f32) (h6 : a6.IsWhole)
    (a7 : Memref sig .tc .vmem S1x128 .f32) (h7 : a7.IsWhole) (a8 : Memref sig .tc .vmem S1x128 .f32) (h8 : a8.IsWhole) (hc : ¬cond0_0 i)
    (x0 x1 : Vec Ideal S8000x128 .f32) (x2 x3 : Vec Ideal S128x128 .f32) (x4 xo6 xo7 : Vec Ideal S1x128 .f32) :
    out0_B_5 (F := Ideal) c i a1 h1 a2 h2 a3 h3 a4 h4 a5 h5 a6 h6 a7 h7 a8 h8 hc x0 x1 x2 x3 x4 xo6 xo7 = k0_pay4 (F := Ideal) x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  rw [View.canon_unit_zero zero_origin]
  simp only [View.readAt_eq_ld, h1.read_unread, h2.read_unread, h3.read_unread, h4.read_unread, h5.read_unread,
    View.ld_unit_zero (S := S8000x128) zero_origin, View.ld_unit_zero (S := S128x128) zero_origin,
    View.ld_unit_zero (S := S1x128) zero_origin]

/-- So after the body at ANY point `t` the first output's buffer holds the block of pre-activations of the five input
    blocks at `t` (no induction over the points is needed: neither case reads what the point before left there). -/
theorem block_written (c : Dev nD) (t : Fin cfg0.N) :
    (dat0 (F := Ideal) V c).after 5 t = k0_pay4 (F := Ideal) (iblk0 V c 0 t) (iblk0 V c 1 t) (iblk0 V c 2 t) (iblk0 V c 3 t) (iblk0 V c 4 t) := by
  rw [after0_5]
  by_cases h : t.val % 100 = 0
  · rw [outsAt0_A V c t h]; dsimp only
    exact block_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h) (iblk0 V c 0 t) (iblk0 V c 1 t) (iblk0 V c 2 t) (iblk0 V c 3 t) (iblk0 V c 4 t)
  · rw [outsAt0_B V c t h]; dsimp only
    exact block_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun hh => h ((hcond0_0 t).mp hh)) (iblk0 V c 0 t) (iblk0 V c 1 t) (iblk0 V c 2 t) (iblk0 V c 3 t) (iblk0 V c 4 t)
      (outsAt0 V c (t.val - 1) (Nat.lt_of_le_of_lt (Nat.sub_le _ _) t.isLt)).2.1 (outsAt0 V c (t.val - 1) (Nat.lt_of_le_of_lt (Nat.sub_le _ _) t.isLt)).2.2

/-- The windows' block indices, decided once over the 100 points: the two gathered operands and the first output move
    down their arrays one block of 8000 rows per point; the weight halves and the bias row stay at their one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of the first operand's block at point `t` is row 8000·t + r of its array. -/
theorem rows_target (c : Dev nD) (t : Fin cfg0.N) (r : Fin 8000) (k : Fin 128) (e : Fin 800000) (he : e.val = 8000 * t.val + r.val) :
    (iblk0 V c 0 t : Vec Ideal S8000x128 .f32) (ix2 r k) = aXi V c (ix2 e k) := by
  obtain ⟨i0, i1, -⟩ := block_index t
  unfold iblk0
  rw [View.read_apply]
  show V c main_v10 _ = V c main_v10 _
  congr 1
  funext a; apply Fin.ext
  match a with
  | ⟨0, _⟩ => show win0_0.index t (0 : Fin 2) * 8000 + 1 * r.val = e.val; rw [i0, he]; omega
  | ⟨1, _⟩ => show win0_0.index t (1 : Fin 2) * 128 + 1 * k.val = k.val; rw [i1]; omega

/-- The same for the second operand. -/
theorem rows_source (c : Dev nD) (t : Fin cfg0.N) (r : Fin 8000) (k : Fin 128) (e : Fin 800000) (he : e.val = 8000 * t.val + r.val) :
    (iblk0 V c 1 t : Vec Ideal S8000x128 .f32) (ix2 r k) = aXj V c (ix2 e k) := by
  obtain ⟨-, -, i0, i1, -⟩ := block_index t
  unfold iblk0
  rw [View.read_apply]
  show V c main_v17 _ = V c main_v17 _
  congr 1
  funext a; apply Fin.ext
  match a with
  | ⟨0, _⟩ => show win0_1.index t (0 : Fin 2) * 8000 + 1 * r.val = e.val; rw [i0, he]; omega
  | ⟨1, _⟩ => show win0_1.index t (1 : Fin 2) * 128 + 1 * k.val = k.val; rw [i1]; omega

/-- The first weight half's one block is the whole array. -/
theorem weights_target (c : Dev nD) (t : Fin cfg0.N) (k j : Fin 128) :
    (iblk0 V c 2 t : Vec Ideal S128x128 .f32) (ix2 k j) = aWi V c (ix2 k j) := by
  obtain ⟨-, -, -, -, i0, i1, -⟩ := block_index t
  unfold iblk0
  rw [View.read_apply]
  show V c main_v19 _ = V c main_v19 _
  congr 1
  funext a; apply Fin.ext
  match a with
  | ⟨0, _⟩ => show win0_2.index t (0 : Fin 2) * 128 + 1 * k.val = k.val; rw [i0]; omega
  | ⟨1, _⟩ => show win0_2.index t (1 : Fin 2) * 128 + 1 * j.val = j.val; rw [i1]; omega

/-- The second weight half's too. -/
theorem weights_source (c : Dev nD) (t : Fin cfg0.N) (k j : Fin 128) :
    (iblk0 V c 3 t : Vec Ideal S128x128 .f32) (ix2 k j) = aWj V c (ix2 k j) := by
  obtain ⟨-, -, -, -, -, -, i0, i1, -⟩ := block_index t
  unfold iblk0
  rw [View.read_apply]
  show V c main_v21 _ = V c main_v21 _
  congr 1
  funext a; apply Fin.ext
  match a with
  | ⟨0, _⟩ => show win0_3.index t (0 : Fin 2) * 128 + 1 * k.val = k.val; rw [i0]; omega
  | ⟨1, _⟩ => show win0_3.index t (1 : Fin 2) * 128 + 1 * j.val = j.val; rw [i1]; omega

/-- And the bias row's. -/
theorem bias_row (c : Dev nD) (t : Fin cfg0.N) (j : Fin 128) :
    (iblk0 V c 4 t : Vec Ideal S1x128 .f32) (ix2 (0 : Fin 1) j) = aB V c (ix2 (0 : Fin 1) j) := by
  obtain ⟨-, -, -, -, -, -, -, -, i0, i1, -⟩ := block_index t
  unfold iblk0
  rw [View.read_apply]
  show V c main_v22 _ = V c main_v22 _
  congr 1
  funext a; apply Fin.ext
  match a with
  | ⟨0, _⟩ => show win0_4.index t (0 : Fin 2) * 1 + 1 * (0 : Fin 1).val = (0 : Fin 1).val; rw [i0]; rfl
  | ⟨1, _⟩ => show win0_4.index t (1 : Fin 2) * 128 + 1 * j.val = j.val; rw [i1]; omega

/-- An entry of the body's block, when row `r` of each operand block is row `e` of its array and the other three blocks
    are the weight halves and the bias row themselves: the pre-activation of edge `e`. -/
theorem block_is_lin (A0 A1 : FVec Ideal Cert.Spec.SE .f32) (W0 W1 : FVec Ideal Cert.Spec.SW .f32) (B : FVec Ideal Cert.Spec.SR .f32)
    (x0 x1 : Vec Ideal S8000x128 .f32) (x2 x3 : Vec Ideal S128x128 .f32) (x4 : Vec Ideal S1x128 .f32)
    (e : Fin 800000) (r : Fin 8000) (j : Fin 128)
    (h0 : ∀ k : Fin 128, x0 (ix2 r k) = A0 (ix2 e k)) (h1 : ∀ k : Fin 128, x1 (ix2 r k) = A1 (ix2 e k))
    (h2 : ∀ k : Fin 128, x2 (ix2 k j) = W0 (ix2 k j)) (h3 : ∀ k : Fin 128, x3 (ix2 k j) = W1 (ix2 k j))
    (h4 : x4 (ix2 (0 : Fin 1) j) = B (ix2 (0 : Fin 1) j)) :
    k0_pay4 (F := Ideal) x0 x1 x2 x3 x4 (ix2 r j) = Cert.Spec.lin A0 A1 W0 W1 B (ix2 e j) := by
  rw [pay4_apply, Cert.Spec.lin_apply]
  unfold Cert.Spec.linAt
  simp only [h0, h1, h2, h3, h4]

/-- Entry `(r, j)` of the block point `t` computes is the pre-activation of edge 8000·t + r in channel `j`. -/
theorem block_entry (c : Dev nD) (t : Fin cfg0.N) (r : Fin 8000) (j : Fin 128) (e : Fin 800000) (he : e.val = 8000 * t.val + r.val) :
    k0_pay4 (F := Ideal) (iblk0 V c 0 t) (iblk0 V c 1 t) (iblk0 V c 2 t) (iblk0 V c 3 t) (iblk0 V c 4 t) (ix2 r j) = H V c (ix2 e j) :=
  block_is_lin (aXi V c) (aXj V c) (aWi V c) (aWj V c) (aB V c) (iblk0 V c 0 t) (iblk0 V c 1 t) (iblk0 V c 2 t) (iblk0 V c 3 t) (iblk0 V c 4 t) e r j
    (fun k => rows_target V c t r k e he) (fun k => rows_source V c t r k e he)
    (fun k => weights_target V c t k j) (fun k => weights_source V c t k j) (bias_row V c t j)

/-- What point `t` writes back to the first output is block `t` of the array of pre-activations. -/
theorem block_flushed (c : Dev nD) (t : Fin cfg0.N) :
    (dat0 (F := Ideal) V c).flushed 5 t = ((cfg0.win 5).blk t).view.read (Elt Ideal) (H V c) := by
  show (cfg0.win 5).cut (grid0.coords t) ((dat0 V c).after 5 t) = _
  rw [block_written]
  funext y
  have hy0 : (y 0).val < 8000 := (y 0).isLt
  have hy1 : (y 1).val < 128 := (y 1).isLt
  have ht : t.val < 100 := lt_of_lt_of_eq t.isLt N_0
  obtain ⟨-, -, -, -, -, -, -, -, -, -, i0, i1⟩ := block_index t
  rw [View.read_apply]
  show k0_pay4 (F := Ideal) (iblk0 V c 0 t) (iblk0 V c 1 t) (iblk0 V c 2 t) (iblk0 V c 3 t) (iblk0 V c 4 t) y = H V c (((cfg0.win 5).blk t).view.emb y)
  have hemb : ((cfg0.win 5).blk t).view.emb y
      = ix2 (⟨8000 * t.val + (y 0).val, by omega⟩ : Fin 800000) (⟨(y 1).val, hy1⟩ : Fin 128) := by
    funext a; apply Fin.ext
    match a with
    | ⟨0, _⟩ => show win0_5.index t (0 : Fin 2) * 8000 + 1 * (y 0).val = 8000 * t.val + (y 0).val; rw [i0]; omega
    | ⟨1, _⟩ => show win0_5.index t (1 : Fin 2) * 128 + 1 * (y 1).val = (y 1).val; rw [i1]; omega
  have hy : (y : S8000x128.Idx) = ix2 (⟨(y 0).val, hy0⟩ : Fin 8000) (⟨(y 1).val, hy1⟩ : Fin 128) := eq_ix2 (n0 := 8000) (n1 := 128) y
  refine (congrArg (k0_pay4 (F := Ideal) (iblk0 V c 0 t) (iblk0 V c 1 t) (iblk0 V c 2 t) (iblk0 V c 3 t) (iblk0 V c 4 t)) hy).trans ?_
  refine (block_entry V c t ⟨(y 0).val, hy0⟩ ⟨(y 1).val, hy1⟩ ⟨8000 * t.val + (y 0).val, by omega⟩ rfl).trans ?_
  exact congrArg (H V c) hemb.symm

/-- An index of the array lies in point `t`'s block iff each coordinate lies in the block's range on its axis. -/
theorem block_mem (t : Fin cfg0.N) (i : Cert.Spec.SE.Idx) :
    i ∈ ((cfg0.win 5).blk t).view.set ↔ ∀ a : Fin 2, win0_5.index t a * S8000x128.size a ≤ (i a).val ∧ (i a).val < win0_5.index t a * S8000x128.size a + S8000x128.size a := by
  show i ∈ ((View.whole main_v25_0).slice (win0_5.rect t)).set ↔ _
  rw [View.set_slice_whole, Rect.mem_set_unit]
  exact Iff.rfl

/-- The 100 blocks tile the array: row `e` lies in the block of point `e / 8000`, which is written back. -/
theorem blocks_cover (i : Cert.Spec.SE.Idx) :
    ∃ t : Fin cfg0.N, (cfg0.win 5).flush t = true ∧ i ∈ ((cfg0.win 5).blk t).view.set := by
  have h0 : (i 0).val < 800000 := (i 0).isLt
  have h1 : (i 1).val < 128 := (i 1).isLt
  have hN : (i 0).val / 8000 < cfg0.N := lt_of_lt_of_eq (by omega : (i 0).val / 8000 < 100) N_0.symm
  refine ⟨⟨(i 0).val / 8000, hN⟩, flush0_5 _, ?_⟩
  obtain ⟨-, -, -, -, -, -, -, -, -, -, i0, i1⟩ := block_index ⟨(i 0).val / 8000, hN⟩
  rw [block_mem]
  intro a
  match a with
  | ⟨0, _⟩ =>
    show win0_5.index ⟨(i 0).val / 8000, hN⟩ (0 : Fin 2) * 8000 ≤ (i 0).val ∧ (i 0).val < win0_5.index ⟨(i 0).val / 8000, hN⟩ (0 : Fin 2) * 8000 + 8000
    rw [i0]; show (i 0).val / 8000 * 8000 ≤ (i 0).val ∧ (i 0).val < (i 0).val / 8000 * 8000 + 8000; omega
  | ⟨1, _⟩ =>
    show win0_5.index ⟨(i 0).val / 8000, hN⟩ (1 : Fin 2) * 128 ≤ (i 1).val ∧ (i 1).val < win0_5.index ⟨(i 0).val / 8000, hN⟩ (1 : Fin 2) * 128 + 128
    rw [i1]; omega

/-- The first output array ends as the pre-activations. -/
theorem final_h (c : Dev nD) : oH V c = H V c :=
  (dat0 (F := Ideal) V c).arrAt_eq_of_cover 5 (H V c) (fun t _ => block_flushed V c t) blocks_cover

end Cert.KernelIdeal.Val0

end
-- ==== Proof.R0Acc.lean ====
/-
  Region 0's two accumulators.  Each is one row whose block never moves: reset to zero at point 0, increased at
  every point t by the column sums (of the block of pre-activations of rows 8000·t … 8000·t + 7999, or of its
  squares), and written back once, after point 99.  After point n it therefore holds the column sums over the rows
  below 8000·(n + 1); after point 99, over all 800000 rows (sums of extended reals regroup freely).
-/
import proofs.«145881_j9715216023597_1_alg».proof.Proof.Gen.KernelIdeal.Frame
import proofs.«145881_j9715216023597_1_alg».proof.Proof.Spec
import Idealize.ShloMosaic.Lib.Pipeline.Value
import Idealize.ShloMosaic.Lib.ValueIdx
import Idealize.ShloMosaic.PureOps.Ideal.Laws
import proofs.«145881_j9715216023597_1_alg».proof.Proof.R0Defs
import proofs.«145881_j9715216023597_1_alg».proof.Proof.R0Pay
import proofs.«145881_j9715216023597_1_alg».proof.Proof.R0H
set_option maxRecDepth 16384

noncomputable section

namespace Cert.KernelIdeal.Val0

open Idealize.ShloMosaic Idealize.ShloMosaic.TcCoe Idealize.SL.Sem Idealize.ShloMosaic.ValueIdx
open Idealize.ShloMosaic.Pipeline (Dat)
open Cert.KernelIdeal Cert.KernelIdeal.Gen

/-! ## What one point does to each row, as arrays -/

section pieces
variable {F : FTy → Type} [FloatOps F]

/-- Away from the first point the sum row becomes: what it held, plus the block's column sums. -/
theorem sum_row_step (c : Dev nD) (i : grid0.Coords)
    (a1 : Memref sig .tc .vmem S8000x128 .f32) (h1 : a1.IsWhole) (a2 : Memref sig .tc .vmem S8000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S8000x128 .f32) (h6 : a6.IsWhole)
    (a7 : Memref sig .tc .vmem S1x128 .f32) (h7 : a7.IsWhole) (a8 : Memref sig .tc .vmem S1x128 .f32) (h8 : a8.IsWhole)
    (hc : ¬cond0_0 i) (x0 x1 : Vec F S8000x128 .f32) (x2 x3 : Vec F S128x128 .f32) (x4 xo6 xo7 : Vec F S1x128 .f32) :
    out0_B_6 c i a1 h1 a2 h2 a3 h3 a4 h4 a5 h5 a6 h6 a7 h7 a8 h8 hc x0 x1 x2 x3 x4 xo6 xo7 = k0_pay5 x0 x1 x2 x3 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero zero_origin]
  simp only [View.readAt_eq_ld, h1.read_unread, h2.read_unread, h3.read_unread, h4.read_unread, h5.read_unread,
    h7.read_unread, View.ld_unit_zero (S := S8000x128) zero_origin, View.ld_unit_zero (S := S128x128) zero_origin,
    View.ld_unit_zero (S := S1x128) zero_origin]

/-- Away from the first point the sum-of-squares row becomes: what it held, plus the column sums of the block's squares. -/
theorem sq_row_step (c : Dev nD) (i : grid0.Coords)
    (a1 : Memref sig .tc .vmem S8000x128 .f32) (h1 : a1.IsWhole) (a2 : Memref sig .tc .vmem S8000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S8000x128 .f32) (h6 : a6.IsWhole)
    (a7 : Memref sig .tc .vmem S1x128 .f32) (h7 : a7.IsWhole) (a8 : Memref sig .tc .vmem S1x128 .f32) (h8 : a8.IsWhole)
    (hc : ¬cond0_0 i) (x0 x1 : Vec F S8000x128 .f32) (x2 x3 : Vec F S128x128 .f32) (x4 xo6 xo7 : Vec F S1x128 .f32) :
    out0_B_7 c i a1 h1 a2 h2 a3 h3 a4 h4 a5 h5 a6 h6 a7 h7 a8 h8 hc x0 x1 x2 x3 x4 xo6 xo7 = k0_pay1 (k0_pay6 xo7) (k0_pay7 x0 x1 x2 x3 x4) := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero zero_origin]
  simp only [View.readAt_eq_ld, h1.read_unread, h2.read_unread, h3.read_unread, h4.read_unread, h5.read_unread,
    h8.read_unread, View.ld_unit_zero (S := S8000x128) zero_origin, View.ld_unit_zero (S := S128x128) zero_origin,
    View.ld_unit_zero (S := S1x128) zero_origin]

/-- At the first point the sum row is first set to the zero row, so it becomes the zero row plus the block's column sums. -/
theorem sum_row_first (c : Dev nD) (i : grid0.Coords)
    (a1 : Memref sig .tc .vmem S8000x128 .f32) (h1 : a1.IsWhole) (a2 : Memref sig .tc .vmem S8000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S8000x128 .f32) (h6 : a6.IsWhole)
    (a7 : Memref sig .tc .vmem S1x128 .f32) (h7 : a7.IsWhole) (a8 : Memref sig .tc .vmem S1x128 .f32) (h8 : a8.IsWhole)
    (hc : cond0_0 i) (x0 x1 : Vec F S8000x128 .f32) (x2 x3 : Vec F S128x128 .f32) (x4 : Vec F S1x128 .f32) :
    out0_A_6 c i a1 h1 a2 h2 a3 h3 a4 h4 a5 h5 a6 h6 a7 h7 a8 h8 hc x0 x1 x2 x3 x4 = k0_pay5 x0 x1 x2 x3 x4 (k0_pay2 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) zero_origin, View.readCov_unit_zero (S := S1x128) _ zero_origin]
  simp only [View.readAt_eq_ld, h1.read_unread, h2.read_unread, h3.read_unread, h4.read_unread, h5.read_unread,
    View.ld_unit_zero (S := S8000x128) zero_origin, View.ld_unit_zero (S := S128x128) zero_origin,
    View.ld_unit_zero (S := S1x128) zero_origin]

/-- At the first point the sum-of-squares row is first set to the zero row likewise. -/
theorem sq_row_first (c : Dev nD) (i : grid0.Coords)
    (a1 : Memref sig .tc .vmem S8000x128 .f32) (h1 : a1.IsWhole) (a2 : Memref sig .tc .vmem S8000x128 .f32) (h2 : a2.IsWhole)
    (a3 : Memref sig .tc .vmem S128x128 .f32) (h3 : a3.IsWhole) (a4 : Memref sig .tc .vmem S128x128 .f32) (h4 : a4.IsWhole)
    (a5 : Memref sig .tc .vmem S1x128 .f32) (h5 : a5.IsWhole) (a6 : Memref sig .tc .vmem S8000x128 .f32) (h6 : a6.IsWhole)
    (a7 : Memref sig .tc .vmem S1x128 .f32) (h7 : a7.IsWhole) (a8 : Memref sig .tc .vmem S1x128 .f32) (h8 : a8.IsWhole)
    (hc : cond0_0 i) (x0 x1 : Vec F S8000x128 .f32) (x2 x3 : Vec F S128x128 .f32) (x4 : Vec F S1x128 .f32) :
    out0_A_7 c i a1 h1 a2 h2 a3 h3 a4 h4 a5 h5 a6 h6 a7 h7 a8 h8 hc x0 x1 x2 x3 x4 = k0_pay1 (k0_pay6 (k0_pay3 (F := F))) (k0_pay7 x0 x1 x2 x3 x4) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) zero_origin, View.readCov_unit_zero (S := S1x128) _ zero_origin]
  simp only [View.readAt_eq_ld, h1.read_unread, h2.read_unread, h3.read_unread, h4.read_unread, h5.read_unread,
    View.ld_unit_zero (S := S8000x128) zero_origin, View.ld_unit_zero (S := S128x128) zero_origin,
    View.ld_unit_zero (S := S1x128) zero_origin]

end pieces

/-! ## The same, read at one channel -/

section reading

/-- The zero row (both accumulators start from it) reads as zero. -/
theorem zero_row_sum_apply (j : Fin 128) : k0_pay2 (F := Ideal) (ix2 (0 : Fin 1) j) = 0 := Ideal.ofBits_zero_f32
theorem zero_row_sq_apply (j : Fin 128) : k0_pay3 (F := Ideal) (ix2 (0 : Fin 1) j) = 0 := Ideal.ofBits_zero_f32

/-- A vector of 128 entries laid out as one row keeps its entries. -/
theorem row_of_vector_apply (v : FVec Ideal S128 .f32) (u : Fin 1) (j : Fin 128) :
    shapeCast S1x128 v shapeCasts_S128_S1x128 (ix2 u j) = v (ix1 j) := by
  refine shapeCast_apply v shapeCasts_S128_S1x128 (ix2 u j) (ix1 j) ?_
  rw [Shape.rowMajor_val_one, Shape.rowMajor_val_two]
  have hu : u.val = 0 := by omega
  show j.val = u.val * 128 + j.val
  omega

/-- The reduction of a block over its row coordinate, at channel `j`: the sum down column `j`. -/
theorem column_sum_apply (src : FVec Ideal S8000x128 .f32) (hacc : (0x00000000#32 : BitVec 32) = 0x00000000#32) (j : Fin 128) :
    multiReduction (F := Ideal) .add [0] S128 src 0x00000000#32 reduces_S8000x128_S128 (.inl rfl) hacc (ix1 j)
      = ∑ r : Fin 8000, src (ix2 r j) := by
  refine (Ideal.multiReduction_add_single src 0x00000000#32 reduces_S8000x128_S128 (.inl rfl) hacc (ix1 j)).trans ?_
  exact Finset.sum_congr rfl fun r _ => congrArg src (funext fun a => match a with | ⟨0, _⟩ => rfl | ⟨1, _⟩ => rfl)

/-- The sum row after a point, at channel `j`: what it held there plus the column sum of the block's pre-activations. -/
theorem sum_update_apply (x0 x1 : Vec Ideal S8000x128 .f32) (x2 x3 : Vec Ideal S128x128 .f32) (x4 acc : Vec Ideal S1x128 .f32)
    (j : Fin 128) :
    k0_pay5 (F := Ideal) x0 x1 x2 x3 x4 acc (ix2 (0 : Fin 1) j)
      = acc (ix2 (0 : Fin 1) j) + ∑ r : Fin 8000, k0_pay4 (F := Ideal) x0 x1 x2 x3 x4 (ix2 r j) := by
  unfold k0_pay5
  refine (addf_apply _ _ _).trans ?_
  refine congrArg₂ (· + ·) (congrFun (shapeCast_self acc shapeCasts_S1x128_S1x128) _) ?_
  refine (row_of_vector_apply _ 0 j).trans ?_
  exact column_sum_apply _ rfl j

/-- The sum-of-squares row after a point, at channel `j`: what it held plus the column sum of the squared pre-activations. -/
theorem sq_update_apply (x0 x1 : Vec Ideal S8000x128 .f32) (x2 x3 : Vec Ideal S128x128 .f32) (x4 acc : Vec Ideal S1x128 .f32)
    (j : Fin 128) :
    k0_pay1 (F := Ideal) (k0_pay6 acc) (k0_pay7 x0 x1 x2 x3 x4) (ix2 (0 : Fin 1) j)
      = acc (ix2 (0 : Fin 1) j)
        + ∑ r : Fin 8000, k0_pay4 (F := Ideal) x0 x1 x2 x3 x4 (ix2 r j) * k0_pay4 (F := Ideal) x0 x1 x2 x3 x4 (ix2 r j) := by
  unfold k0_pay1 k0_pay6 k0_pay7
  refine (addf_apply _ _ _).trans ?_
  refine congrArg₂ (· + ·) (congrFun (shapeCast_self acc shapeCasts_S1x128_S1x128) _) ?_
  refine (row_of_vector_apply _ 0 j).trans ?_
  exact column_sum_apply _ rfl j

end reading

variable (V : (c : Dev nD) → (b : Ref sig .tc) → Buf (Elt Ideal) ((c : Thread nD τ).loc b))

/-! ## The sum row after every point -/

section running

/-- Column `j` of the pre-activations as a function of every natural number (zero past the last edge), so that a sum over a
    range of rows needs no bound. -/
def preCol (c : Dev nD) (j : Fin 128) (e : ℕ) : EReal := if h : e < 800000 then H V c (ix2 ⟨e, h⟩ j) else 0

theorem preCol_of_lt (c : Dev nD) (j : Fin 128) (e : ℕ) (h : e < 800000) : preCol V c j e = H V c (ix2 ⟨e, h⟩ j) := dif_pos h

/-- The column sum of the block of pre-activations at point `t` is the sum of column `j` over rows `8000·t … 8000·t + 7999`; -/
theorem block_sum (c : Dev nD) (t : Fin cfg0.N) (j : Fin 128) :
    ∑ r : Fin 8000, k0_pay4 (F := Ideal) (iblk0 V c 0 t) (iblk0 V c 1 t) (iblk0 V c 2 t) (iblk0 V c 3 t) (iblk0 V c 4 t) (ix2 r j)
      = ∑ x ∈ Finset.range 8000, preCol V c j (8000 * t.val + x) := by
  have hN : t.val < 100 := lt_of_lt_of_eq t.isLt N_0
  rw [Finset.sum_range]
  refine Finset.sum_congr rfl fun r _ => ?_
  have h : 8000 * t.val + r.val < 800000 := by have := r.isLt; omega
  rw [block_entry V c t r j ⟨8000 * t.val + r.val, h⟩ rfl, preCol_of_lt V c j _ h]

/-- and of its squares, the sum of the squares of column `j` over the same rows. -/
theorem block_sumsq (c : Dev nD) (t : Fin cfg0.N) (j : Fin 128) :
    ∑ r : Fin 8000, k0_pay4 (F := Ideal) (iblk0 V c 0 t) (iblk0 V c 1 t) (iblk0 V c 2 t) (iblk0 V c 3 t) (iblk0 V c 4 t) (ix2 r j) * k0_pay4 (F := Ideal) (iblk0 V c 0 t) (iblk0 V c 1 t) (iblk0 V c 2 t) (iblk0 V c 3 t) (iblk0 V c 4 t) (ix2 r j)
      = ∑ x ∈ Finset.range 8000, preCol V c j (8000 * t.val + x) * preCol V c j (8000 * t.val + x) := by
  have hN : t.val < 100 := lt_of_lt_of_eq t.isLt N_0
  rw [Finset.sum_range]
  refine Finset.sum_congr rfl fun r _ => ?_
  have h : 8000 * t.val + r.val < 800000 := by have := r.isLt; omega
  rw [block_entry V c t r j ⟨8000 * t.val + r.val, h⟩ rfl, preCol_of_lt V c j _ h]

/-- The sum row after the first point: the first block's column sums. -/
theorem sum_row_at_first (c : Dev nD) (j : Fin 128) (t : Fin cfg0.N) (h0 : t.val % 100 = 0) :
    (outsAt0 V c t.val t.isLt).2.1 (ix2 (0 : Fin 1) j) = ∑ r : Fin 8000, k0_pay4 (F := Ideal) (iblk0 V c 0 t) (iblk0 V c 1 t) (iblk0 V c 2 t) (iblk0 V c 3 t) (iblk0 V c 4 t) (ix2 r j) := by
  rw [outsAt0_A V c t h0]
  dsimp only
  refine (congrFun (sum_row_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)) (ix2 (0 : Fin 1) j)).trans ?_
  rw [sum_update_apply, zero_row_sum_apply, zero_add]

/-- The sum row after a later point: what the point before left, plus this block's column sums. -/
theorem sum_row_at_later (c : Dev nD) (j : Fin 128) (t : Fin cfg0.N) (h0 : ¬t.val % 100 = 0) :
    (outsAt0 V c t.val t.isLt).2.1 (ix2 (0 : Fin 1) j)
      = (outsAt0 V c (t.val - 1) (Nat.lt_of_le_of_lt (Nat.sub_le _ _) t.isLt)).2.1 (ix2 (0 : Fin 1) j)
        + ∑ r : Fin 8000, k0_pay4 (F := Ideal) (iblk0 V c 0 t) (iblk0 V c 1 t) (iblk0 V c 2 t) (iblk0 V c 3 t) (iblk0 V c 4 t) (ix2 r j) := by
  rw [outsAt0_B V c t h0]
  dsimp only
  refine (congrFun (sum_row_step (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t)
    (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) j)).trans ?_
  exact sum_update_apply _ _ _ _ _ _ j

/-- After point `n` the sum row holds, in channel `j`, the sum of column `j` over the rows below `8000·(n + 1)`. -/
theorem sum_row_after (c : Dev nD) (j : Fin 128) : ∀ (n : ℕ) (hn : n < cfg0.N),
    (outsAt0 V c n hn).2.1 (ix2 (0 : Fin 1) j) = ∑ e ∈ Finset.range (8000 * (n + 1)), preCol V c j e
  | 0, hn => by
    refine (sum_row_at_first V c j ⟨0, hn⟩ rfl).trans ?_
    rw [block_sum]
    simp
  | n + 1, hn => by
    have hN : cfg0.N = 100 := N_0
    have hB : ¬(⟨n + 1, hn⟩ : Fin cfg0.N).val % 100 = 0 := by dsimp only; omega
    refine (sum_row_at_later V c j ⟨n + 1, hn⟩ hB).trans ?_
    rw [block_sum, show 8000 * (n + 1 + 1) = 8000 * (n + 1) + 8000 by ring, Finset.sum_range_add,
      ← sum_row_after c j n (Nat.lt_of_succ_lt hn)]
    rfl

end running

/-! ## The sum-of-squares row after every point -/

section running_squares

/-- The sum-of-squares row after the first point: the column sums of the first block's squares. -/
theorem sq_row_at_first (c : Dev nD) (j : Fin 128) (t : Fin cfg0.N) (h0 : t.val % 100 = 0) :
    (outsAt0 V c t.val t.isLt).2.2 (ix2 (0 : Fin 1) j)
      = ∑ r : Fin 8000, k0_pay4 (F := Ideal) (iblk0 V c 0 t) (iblk0 V c 1 t) (iblk0 V c 2 t) (iblk0 V c 3 t) (iblk0 V c 4 t) (ix2 r j) * k0_pay4 (F := Ideal) (iblk0 V c 0 t) (iblk0 V c 1 t) (iblk0 V c 2 t) (iblk0 V c 3 t) (iblk0 V c 4 t) (ix2 r j) := by
  rw [outsAt0_A V c t h0]
  dsimp only
  refine (congrFun (sq_row_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)) (ix2 (0 : Fin 1) j)).trans ?_
  rw [sq_update_apply, zero_row_sq_apply, zero_add]

/-- The sum-of-squares row after a later point: what the point before left, plus the column sums of this block's squares. -/
theorem sq_row_at_later (c : Dev nD) (j : Fin 128) (t : Fin cfg0.N) (h0 : ¬t.val % 100 = 0) :
    (outsAt0 V c t.val t.isLt).2.2 (ix2 (0 : Fin 1) j)
      = (outsAt0 V c (t.val - 1) (Nat.lt_of_le_of_lt (Nat.sub_le _ _) t.isLt)).2.2 (ix2 (0 : Fin 1) j)
        + ∑ r : Fin 8000, k0_pay4 (F := Ideal) (iblk0 V c 0 t) (iblk0 V c 1 t) (iblk0 V c 2 t) (iblk0 V c 3 t) (iblk0 V c 4 t) (ix2 r j) * k0_pay4 (F := Ideal) (iblk0 V c 0 t) (iblk0 V c 1 t) (iblk0 V c 2 t) (iblk0 V c 3 t) (iblk0 V c 4 t) (ix2 r j) := by
  rw [outsAt0_B V c t h0]
  dsimp only
  refine (congrFun (sq_row_step (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t)
    (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) j)).trans ?_
  exact sq_update_apply _ _ _ _ _ _ j

/-- After point `n` the sum-of-squares row holds, in channel `j`, the sum of the squares of column `j` over the rows below
    `8000·(n + 1)`. -/
theorem sq_row_after (c : Dev nD) (j : Fin 128) : ∀ (n : ℕ) (hn : n < cfg0.N),
    (outsAt0 V c n hn).2.2 (ix2 (0 : Fin 1) j)
      = ∑ e ∈ Finset.range (8000 * (n + 1)), preCol V c j e * preCol V c j e
  | 0, hn => by
    refine (sq_row_at_first V c j ⟨0, hn⟩ rfl).trans ?_
    rw [block_sumsq]
    simp
  | n + 1, hn => by
    have hN : cfg0.N = 100 := N_0
    have hB : ¬(⟨n + 1, hn⟩ : Fin cfg0.N).val % 100 = 0 := by dsimp only; omega
    refine (sq_row_at_later V c j ⟨n + 1, hn⟩ hB).trans ?_
    rw [block_sumsq, show 8000 * (n + 1 + 1) = 8000 * (n + 1) + 8000 by ring, Finset.sum_range_add,
      ← sq_row_after c j n (Nat.lt_of_succ_lt hn)]
    rfl

end running_squares

/-! ## The one write-back -/

section written_back

/-- The last point of the grid. -/
theorem last_point : (99 : ℕ) < cfg0.N := lt_of_lt_of_eq (by decide) N_0.symm

/-- Neither accumulator's block ever moves: decided once over the 100 points. -/
theorem row_block_index : ∀ t : Fin cfg0.N,
    win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Over all 800000 rows the extended column is the column. -/
theorem all_rows_sum (c : Dev nD) (j : Fin 128) :
    ∑ e ∈ Finset.range (8000 * (99 + 1)), preCol V c j e = ∑ e : Fin 800000, H V c (ix2 e j) := by
  show ∑ e ∈ Finset.range 800000, preCol V c j e = _
  rw [Finset.sum_range]
  exact Finset.sum_congr rfl fun e _ => preCol_of_lt V c j e.val e.isLt

theorem all_rows_sumsq (c : Dev nD) (j : Fin 128) :
    ∑ e ∈ Finset.range (8000 * (99 + 1)), preCol V c j e * preCol V c j e
      = ∑ e : Fin 800000, H V c (ix2 e j) * H V c (ix2 e j) := by
  show ∑ e ∈ Finset.range 800000, preCol V c j e * preCol V c j e = _
  rw [Finset.sum_range]
  exact Finset.sum_congr rfl fun e _ => by rw [preCol_of_lt V c j e.val e.isLt]

/-- Read through the sum row's window, a row is itself: the block is the whole array, at offset zero; -/
theorem sum_window_read (G : FVec Ideal Cert.Spec.SR .f32) (t : Fin cfg0.N) (j : Fin 128) :
    ((cfg0.win 6).blk t).view.read (Elt Ideal) G (ix2 (0 : Fin 1) j) = G (ix2 (0 : Fin 1) j) := by
  obtain ⟨i0, i1, -⟩ := row_block_index t
  rw [View.read_apply]
  show G _ = G _
  congr 1
  funext a; apply Fin.ext
  match a with
  | ⟨0, _⟩ => show win0_6.index t (0 : Fin 2) * 1 + 1 * (0 : Fin 1).val = (0 : Fin 1).val; rw [i0]; rfl
  | ⟨1, _⟩ => show win0_6.index t (1 : Fin 2) * 128 + 1 * j.val = j.val; rw [i1]; omega

/-- and likewise through the sum-of-squares row's window. -/
theorem sumsq_window_read (G : FVec Ideal Cert.Spec.SR .f32) (t : Fin cfg0.N) (j : Fin 128) :
    ((cfg0.win 7).blk t).view.read (Elt Ideal) G (ix2 (0 : Fin 1) j) = G (ix2 (0 : Fin 1) j) := by
  obtain ⟨-, -, i0, i1⟩ := row_block_index t
  rw [View.read_apply]
  show G _ = G _
  congr 1
  funext a; apply Fin.ext
  match a with
  | ⟨0, _⟩ => show win0_7.index t (0 : Fin 2) * 1 + 1 * (0 : Fin 1).val = (0 : Fin 1).val; rw [i0]; rfl
  | ⟨1, _⟩ => show win0_7.index t (1 : Fin 2) * 128 + 1 * j.val = j.val; rw [i1]; omega

/-- A write-back of the sum row takes the whole buffer as the body left it; -/
theorem sum_taken (c : Dev nD) (t : Fin cfg0.N) (y : S1x128.Idx) :
    (dat0 (F := Ideal) V c).flushed 6 t y = (outsAt0 V c t.val t.isLt).2.1 y := by
  show (cfg0.win 6).cut (grid0.coords t) ((dat0 V c).after 6 t) y = _
  rw [after0_6]
  rfl

/-- and so does one of the sum-of-squares row. -/
theorem sumsq_taken (c : Dev nD) (t : Fin cfg0.N) (y : S1x128.Idx) :
    (dat0 (F := Ideal) V c).flushed 7 t y = (outsAt0 V c t.val t.isLt).2.2 y := by
  show (cfg0.win 7).cut (grid0.coords t) ((dat0 V c).after 7 t) y = _
  rw [after0_7]
  rfl

/-- What the one write-back of the sum row writes is the row of column sums over all edges. -/
theorem sum_flushed (c : Dev nD) (t : Fin cfg0.N) (hf : (cfg0.win 6).flush t = true) :
    (dat0 (F := Ideal) V c).flushed 6 t = ((cfg0.win 6).blk t).view.read (Elt Ideal) (Cert.Spec.colsum (H V c)) := by
  have hN : cfg0.N = 100 := N_0
  have h99 : t.val = 99 := by have := (flush0_6 t).mp hf; have := t.isLt; omega
  funext y
  obtain ⟨u, j, rfl⟩ : ∃ (u : Fin 1) (j : Fin 128), y = ix2 u j :=
    ⟨⟨(y 0).val, idx2_lt0 y⟩, ⟨(y 1).val, idx2_lt1 y⟩, eq_ix2 y⟩
  obtain rfl : u = 0 := Subsingleton.elim _ _
  refine Eq.trans ?_ (sum_window_read (Cert.Spec.colsum (H V c)) t j).symm
  refine (sum_taken V c t (ix2 (0 : Fin 1) j)).trans ?_
  rw [Cert.Spec.colsum_apply, sum_row_after V c j t.val t.isLt, h99]
  exact all_rows_sum V c j

/-- What the one write-back of the sum-of-squares row writes is the row of column sums of squares over all edges. -/
theorem sumsq_flushed (c : Dev nD) (t : Fin cfg0.N) (hf : (cfg0.win 7).flush t = true) :
    (dat0 (F := Ideal) V c).flushed 7 t = ((cfg0.win 7).blk t).view.read (Elt Ideal) (Cert.Spec.colsumsq (H V c)) := by
  have hN : cfg0.N = 100 := N_0
  have h99 : t.val = 99 := by have := (flush0_7 t).mp hf; have := t.isLt; omega
  funext y
  obtain ⟨u, j, rfl⟩ : ∃ (u : Fin 1) (j : Fin 128), y = ix2 u j :=
    ⟨⟨(y 0).val, idx2_lt0 y⟩, ⟨(y 1).val, idx2_lt1 y⟩, eq_ix2 y⟩
  obtain rfl : u = 0 := Subsingleton.elim _ _
  refine Eq.trans ?_ (sumsq_window_read (Cert.Spec.colsumsq (H V c)) t j).symm
  refine (sumsq_taken V c t (ix2 (0 : Fin 1) j)).trans ?_
  rw [Cert.Spec.colsumsq_apply, sq_row_after V c j t.val t.isLt, h99]
  exact all_rows_sumsq V c j

/-- The sum row's block at the last point is the whole one-row array; -/
theorem sum_row_covered (i : Cert.Spec.SR.Idx) : i ∈ ((cfg0.win 6).blk ⟨99, last_point⟩).view.set := by
  have h0 : (i 0).val < 1 := (i 0).isLt
  have h1 : (i 1).val < 128 := (i 1).isLt
  obtain ⟨i0, i1, -⟩ := row_block_index ⟨99, last_point⟩
  show i ∈ ((View.whole main_v25_1).slice (win0_6.rect ⟨99, last_point⟩)).set
  rw [View.set_slice_whole, Rect.mem_set_unit]
  intro a
  match a with
  | ⟨0, _⟩ =>
    show win0_6.index ⟨99, last_point⟩ (0 : Fin 2) * 1 ≤ (i 0).val
      ∧ (i 0).val < win0_6.index ⟨99, last_point⟩ (0 : Fin 2) * 1 + 1
    rw [i0]; omega
  | ⟨1, _⟩ =>
    show win0_6.index ⟨99, last_point⟩ (1 : Fin 2) * 128 ≤ (i 1).val
      ∧ (i 1).val < win0_6.index ⟨99, last_point⟩ (1 : Fin 2) * 128 + 128
    rw [i1]; omega

/-- and so is the sum-of-squares row's. -/
theorem sumsq_row_covered (i : Cert.Spec.SR.Idx) : i ∈ ((cfg0.win 7).blk ⟨99, last_point⟩).view.set := by
  have h0 : (i 0).val < 1 := (i 0).isLt
  have h1 : (i 1).val < 128 := (i 1).isLt
  obtain ⟨-, -, i0, i1⟩ := row_block_index ⟨99, last_point⟩
  show i ∈ ((View.whole main_v25_2).slice (win0_7.rect ⟨99, last_point⟩)).set
  rw [View.set_slice_whole, Rect.mem_set_unit]
  intro a
  match a with
  | ⟨0, _⟩ =>
    show win0_7.index ⟨99, last_point⟩ (0 : Fin 2) * 1 ≤ (i 0).val
      ∧ (i 0).val < win0_7.index ⟨99, last_point⟩ (0 : Fin 2) * 1 + 1
    rw [i0]; omega
  | ⟨1, _⟩ =>
    show win0_7.index ⟨99, last_point⟩ (1 : Fin 2) * 128 ≤ (i 1).val
      ∧ (i 1).val < win0_7.index ⟨99, last_point⟩ (1 : Fin 2) * 128 + 128
    rw [i1]; omega

end written_back

/-- The sum accumulator ends as the column sums over all edges. -/
theorem final_sum (c : Dev nD) : oS V c = Cert.Spec.colsum (H V c) :=
  (dat0 (F := Ideal) V c).arrAt_eq_of_cover 6 (Cert.Spec.colsum (H V c)) (sum_flushed V c) fun i =>
    ⟨⟨99, last_point⟩, (flush0_6 _).mpr rfl, sum_row_covered i⟩

/-- The sum-of-squares accumulator ends as the column sums of squares over all edges. -/
theorem final_sumsq (c : Dev nD) : oQ V c = Cert.Spec.colsumsq (H V c) :=
  (dat0 (F := Ideal) V c).arrAt_eq_of_cover 7 (Cert.Spec.colsumsq (H V c)) (sumsq_flushed V c) fun i =>
    ⟨⟨99, last_point⟩, (flush0_7 _).mpr rfl, sumsq_row_covered i⟩

end Cert.KernelIdeal.Val0

end
-- ==== Proof.R1Value.lean ====
/-
  Region 1 (normalise and clamp), read as values on the exact instance: every block of the output is the block of
  pre-activations times the scale row plus the shift row, clamped at zero; the blocks tile the output array.
-/
import proofs.«145881_j9715216023597_1_alg».proof.Proof.Gen.KernelIdeal.Frame
import proofs.«145881_j9715216023597_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The region's three input arrays as it finds them, at their literal types. -/
abbrev aH (c : Dev nD) : FVec Ideal Cert.Spec.SE .f32 := V c main_v25_0
abbrev aScale (c : Dev nD) : FVec Ideal Cert.Spec.SR .f32 := V c main_v35
abbrev aShift (c : Dev nD) : FVec Ideal Cert.Spec.SR .f32 := V c main_v37

/-- The output array after the region, at its literal type. -/
abbrev oAct (c : Dev nD) : FVec Ideal Cert.Spec.SE .f32 := (dat1 (F := Ideal) V c).arrAt 3 cfg1.N

/-! ## One entry of a block -/

/-- The body's result at row \`p\`, channel \`q\` of a block: the block of pre-activations there, times the scale row's
    entry of that channel, plus the shift row's, clamped below at zero.  (The two rows are copied down the 8000 rows
    of the block; the casts to the same shape do nothing.) -/
theorem block_entry (x0 : Vec Ideal S8000x128 .f32) (x1 x2 : Vec Ideal S1x128 .f32) (p : Fin 8000) (q : Fin 128) :
    k1_pay1 (F := Ideal) x0 x1 x2 (ix2 p q)
      = max (x0 (ix2 p q) * x1 (ix2 (0 : Fin 1) q) + x2 (ix2 (0 : Fin 1) q)) (Ideal.ofBits .f32 0x00000000#32) := by
  unfold k1_pay1
  simp only [shapeCast_self]
  rw [maximumf_apply, addf_apply, mulf_apply, broadcast_apply, broadcastTo_1b_ab_apply, broadcastTo_1b_ab_apply]
  rfl

/-- An entry of a block is the activation at an entry \`i\` of the whole arrays, once the block of pre-activations
    there is the array's entry \`i\`, the two rows are the arrays' rows, and \`i\`'s channel is \`q\`. -/
theorem block_entry_act (H : FVec Ideal Cert.Spec.SE .f32) (sc sh : FVec Ideal Cert.Spec.SR .f32)
    (x0 : Vec Ideal S8000x128 .f32) (x1 x2 : Vec Ideal S1x128 .f32) (p : Fin 8000) (q : Fin 128) (i : Cert.Spec.SE.Idx)
    (h0 : x0 (ix2 p q) = H i) (h1 : x1 (ix2 (0 : Fin 1) q) = sc (ix2 (0 : Fin 1) q))
    (h2 : x2 (ix2 (0 : Fin 1) q) = sh (ix2 (0 : Fin 1) q)) (hi : (i 1).val = q.val) :
    k1_pay1 (F := Ideal) x0 x1 x2 (ix2 p q) = Cert.Spec.act H sc sh i := by
  rw [block_entry, h0, h1, h2]
  have hq : (⟨(i 1).val, idx2_lt1 i⟩ : Fin 128) = q := Fin.ext hi
  unfold Cert.Spec.act
  rw [hq]

/-! ## Where the blocks sit -/

theorem zero_offsets : (![0, 0] : Fin 2 → Nat) = fun _ => 0 :=
  funext fun a => match a with | ⟨0, _⟩ => rfl | ⟨1, _⟩ => rfl

/-- The block indices over the grid: at point \`t\` the pre-activations' and the output's block is block \`t\` of the
    rows (and the only block of the channels); the two rows are their arrays' only block. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point \`t\` writes back is block \`t\` of the activation of the arrays the region finds. -/
theorem written_block (c : Dev nD) (t : Fin cfg1.N) :
    (dat1 (F := Ideal) V c).flushed 3 t
      = ((cfg1.win 3).blk t).view.read (Elt Ideal) (Cert.Spec.act (aH V c) (aScale V c) (aShift V c)) := by
  show (cfg1.win 3).cut (grid1.coords t) ((dat1 (F := Ideal) V c).after 3 t) = _
  rw [after1_3]
  unfold out1_3
  rw [View.canon_unit_zero zero_offsets]
  simp only [View.ld_unit_zero (S := S8000x128) zero_offsets, View.ld_unit_zero (S := S1x128) zero_offsets]
  obtain ⟨e00, e01, e10, e11, e20, e21, e30, e31⟩ := block_indices t
  funext j
  obtain ⟨p, q, rfl⟩ : ∃ (p : Fin 8000) (q : Fin 128), j = ix2 p q :=
    ⟨⟨(j 0).val, idx2_lt0 j⟩, ⟨(j 1).val, idx2_lt1 j⟩, eq_ix2 j⟩
  show k1_pay1 (F := Ideal) (iblk1 V c 0 t) (iblk1 V c 1 t) (iblk1 V c 2 t) (ix2 p q)
      = Cert.Spec.act (aH V c) (aScale V c) (aShift V c) (((cfg1.win 3).blk t).view.emb (ix2 p q))
  refine block_entry_act (aH V c) (aScale V c) (aShift V c) (iblk1 V c 0 t) (iblk1 V c 1 t) (iblk1 V c 2 t) p q
    (((cfg1.win 3).blk t).view.emb (ix2 p q)) ?_ ?_ ?_ ?_
  · -- the block of pre-activations sits where the output's block sits
    show V c main_v25_0 (((cfg1.win 0).blk t).view.emb (ix2 p q)) = V c main_v25_0 (((cfg1.win 3).blk t).view.emb (ix2 p q))
    refine congrArg _ (funext fun a => Fin.ext ?_)
    match a with
    | ⟨0, _⟩ => show win1_0.index t (0 : Fin 2) * 8000 + 1 * p.val = win1_3.index t (0 : Fin 2) * 8000 + 1 * p.val; omega
    | ⟨1, _⟩ => show win1_0.index t (1 : Fin 2) * 128 + 1 * q.val = win1_3.index t (1 : Fin 2) * 128 + 1 * q.val; omega
  · -- the scale row's block is the whole row
    show V c main_v35 (((cfg1.win 1).blk t).view.emb (ix2 (0 : Fin 1) q)) = V c main_v35 (ix2 (0 : Fin 1) q)
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · -- and so is the shift row's
    show V c main_v37 (((cfg1.win 2).blk t).view.emb (ix2 (0 : Fin 1) q)) = V c main_v37 (ix2 (0 : Fin 1) q)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · -- the channel of the array's entry is the channel inside the block
    show win1_3.index t (1 : Fin 2) * 128 + 1 * q.val = q.val; omega

/-! ## The blocks tile the output -/

/-- An entry of the output array lies in point \`t\`'s block iff, on each axis, its coordinate lies in the block's range. -/
theorem mem_block (t : Fin cfg1.N) (i : S800000x128.Idx) :
    i ∈ ((cfg1.win 3).blk t).view.set
      ↔ ∀ a : Fin 2, win1_3.index t a * S8000x128.size a ≤ (i a).val
          ∧ (i a).val < win1_3.index t a * S8000x128.size a + S8000x128.size a := by
  show i ∈ ((View.whole main_v38).slice (win1_3.rect t)).set ↔ _
  rw [View.set_slice_whole, Rect.mem_set_unit]
  exact Iff.rfl

/-- Every entry \`(e, j)\` of the output array lies in the block of the point \`e / 8000\`, which writes it back. -/
theorem blocks_cover (i : S800000x128.Idx) :
    ∃ t : Fin cfg1.N, (cfg1.win 3).flush t = true ∧ i ∈ ((cfg1.win 3).blk t).view.set := by
  have hN : grid1.N = 100 := N_1
  have hi0 : (i 0).val < 800000 := idx2_lt0 i
  have hi1 : (i 1).val < 128 := idx2_lt1 i
  have ht : (i 0).val / 8000 < grid1.N := by rw [hN]; omega
  obtain ⟨-, -, -, -, -, -, e30, e31⟩ := block_indices ⟨(i 0).val / 8000, ht⟩
  have e30' : win1_3.index ⟨(i 0).val / 8000, ht⟩ (0 : Fin 2) = (i 0).val / 8000 := e30
  refine ⟨⟨(i 0).val / 8000, ht⟩, flush1_3 _, ?_⟩
  rw [mem_block]
  intro a
  match a with
  | ⟨0, _⟩ =>
    show win1_3.index ⟨(i 0).val / 8000, ht⟩ (0 : Fin 2) * 8000 ≤ (i 0).val
      ∧ (i 0).val < win1_3.index ⟨(i 0).val / 8000, ht⟩ (0 : Fin 2) * 8000 + 8000
    omega
  | ⟨1, _⟩ =>
    show win1_3.index ⟨(i 0).val / 8000, ht⟩ (1 : Fin 2) * 128 ≤ (i 1).val
      ∧ (i 1).val < win1_3.index ⟨(i 0).val / 8000, ht⟩ (1 : Fin 2) * 128 + 128
    omega

/-- The output array ends as the activation of the arrays the region finds. -/
theorem final_act (c : Dev nD) : oAct V c = Cert.Spec.act (aH V c) (aScale V c) (aShift V c) :=
  (dat1 (F := Ideal) V c).arrAt_eq_of_cover 3 (Cert.Spec.act (aH V c) (aScale V c) (aShift V c))
    (fun t _ => written_block V c t) blocks_cover

end Cert.KernelIdeal.Val1

end
-- ==== Proof.KFold.lean ====
/-
  The kernel program's two results as closed terms of its six arguments (exact instance).
  @main is five segments: the host operations that gather the two operand arrays, transpose the two halves of the weights
  and lay the three vectors out as rows; region 0; the host operations that turn the two accumulated rows into the
  scale and shift rows; region 1; and the host operations of the segment mean.  Reading each boundary's contents back
  through the segments, with each region's output arrays at the values the region modules give them, leaves the
  activation as `actK` and the second result as `tail` of it.
-/
import proofs.«145881_j9715216023597_1_alg».proof.Proof.Gen.KernelIdeal.Frame
import proofs.«145881_j9715216023597_1_alg».proof.Proof.Spec
import Idealize.ShloMosaic.Lib.Pipeline.Value
import Idealize.ShloMosaic.Lib.ValueIdx
import Idealize.ShloMosaic.PureOps.Ideal.Laws
import proofs.«145881_j9715216023597_1_alg».proof.Proof.KRun
import proofs.«145881_j9715216023597_1_alg».proof.Proof.KTerms
import proofs.«145881_j9715216023597_1_alg».proof.Proof.R0H
import proofs.«145881_j9715216023597_1_alg».proof.Proof.R0Acc
import proofs.«145881_j9715216023597_1_alg».proof.Proof.R1Value
import Idealize.ShloMosaic.Lib.StableHlo.Run
set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen

/-! ## The two results through the fold -/

variable (m : (ℓ : Loc nD τ sig) → Buf (Elt Ideal) ℓ) (ρ : Dev nD → PrngReg)

/-- The six arguments' launch contents at their literal types. -/
abbrev X (c : Dev nD) : FVec Ideal S50000x128 .f32 := m ((c.tc : Thread nD τ).loc main_arg0)
abbrev EI (c : Dev nD) : (⟨S2x800000, .i32⟩ : BufTy).Contents (Elt Ideal) := m ((c.tc : Thread nD τ).loc main_arg1)
abbrev Wt (c : Dev nD) : FVec Ideal S128x256 .f32 := m ((c.tc : Thread nD τ).loc main_arg2)
abbrev B1 (c : Dev nD) : FVec Ideal S128 .f32 := m ((c.tc : Thread nD τ).loc main_arg3)
abbrev Gm (c : Dev nD) : FVec Ideal S128 .f32 := m ((c.tc : Thread nD τ).loc main_arg4)
abbrev Bt (c : Dev nD) : FVec Ideal S128 .f32 := m ((c.tc : Thread nD τ).loc main_arg5)

/-! ## Region 0's entry: the host operations before it, read at the launch contents -/

/-- The vector of target nodes. -/
private theorem W1_v1 (c : Dev nD) :
    (W1 (F := Ideal) m ρ c (Proc.devRef .tc main_v1) : (⟨S800000, .i32⟩ : BufTy).Contents (Elt Ideal)) = dstRow (EI m c) := by
  show StableHlo.after hostOps0 _ (Proc.devRef .tc main_v1) = _
  after_results
  rfl

/-- The gathered rows of the target nodes. -/
private theorem V1_v10 (c : Dev nD) :
    (V1 (F := Ideal) m ρ c main_v10 : FVec Ideal S800000x128 .f32) = gatherRows (X m c) (dstRow (EI m c)) := by
  show StableHlo.after hostOps0 _ (Proc.devRef .tc main_v10) = _
  after_results
  rfl

/-- The gathered rows of the source nodes. -/
private theorem V1_v17 (c : Dev nD) :
    (V1 (F := Ideal) m ρ c main_v17 : FVec Ideal S800000x128 .f32) = gatherRows (X m c) (srcRow (EI m c)) := by
  show StableHlo.after hostOps0 _ (Proc.devRef .tc main_v17) = _
  after_results
  rfl

/-- The two transposed halves of the weights. -/
private theorem V1_v19 (c : Dev nD) :
    (V1 (F := Ideal) m ρ c main_v19 : FVec Ideal S128x128 .f32) = wHalfI (Wt m c) := by
  show StableHlo.after hostOps0 _ (Proc.devRef .tc main_v19) = _
  after_results
  rfl

private theorem V1_v21 (c : Dev nD) :
    (V1 (F := Ideal) m ρ c main_v21 : FVec Ideal S128x128 .f32) = wHalfJ (Wt m c) := by
  show StableHlo.after hostOps0 _ (Proc.devRef .tc main_v21) = _
  after_results
  rfl

/-- The bias, the gain and the offset as rows. -/
private theorem V1_v22 (c : Dev nD) :
    (V1 (F := Ideal) m ρ c main_v22 : FVec Ideal S1x128 .f32) = asRow (B1 m c) := by
  show StableHlo.after hostOps0 _ (Proc.devRef .tc main_v22) = _
  after_results
  rfl

private theorem W1_v23 (c : Dev nD) :
    (W1 (F := Ideal) m ρ c (Proc.devRef .tc main_v23) : FVec Ideal S1x128 .f32) = asRow (Gm m c) := by
  show StableHlo.after hostOps0 _ (Proc.devRef .tc main_v23) = _
  after_results
  rfl

private theorem W1_v24 (c : Dev nD) :
    (W1 (F := Ideal) m ρ c (Proc.devRef .tc main_v24) : FVec Ideal S1x128 .f32) = asRow (Bt m c) := by
  show StableHlo.after hostOps0 _ (Proc.devRef .tc main_v24) = _
  after_results
  rfl

/-- The pre-activations of the arrays region 0 finds are the pre-activations of the arguments. -/
private theorem preact_entry (c : Dev nD) : Val0.H (V1 (F := Ideal) m ρ) c = preact (X m c) (EI m c) (Wt m c) (B1 m c) := by
  show Cert.Spec.lin (V1 (F := Ideal) m ρ c main_v10) (V1 (F := Ideal) m ρ c main_v17) (V1 (F := Ideal) m ρ c main_v19)
      (V1 (F := Ideal) m ρ c main_v21) (V1 (F := Ideal) m ρ c main_v22) = Cert.Spec.lin _ _ _ _ _
  rw [V1_v10, V1_v17, V1_v19, V1_v21, V1_v22]

/-! ## Region 0's exit -/

private theorem W2_h (c : Dev nD) :
    (W2 (F := Ideal) m ρ c (Proc.devRef .tc main_v25_0) : FVec Ideal S800000x128 .f32) = preact (X m c) (EI m c) (Wt m c) (B1 m c) :=
  (W2_arr m ρ c 5).trans ((Val0.final_h (V1 (F := Ideal) m ρ) c).trans (preact_entry m ρ c))

private theorem W2_sum (c : Dev nD) :
    (W2 (F := Ideal) m ρ c (Proc.devRef .tc main_v25_1) : FVec Ideal S1x128 .f32)
      = Cert.Spec.colsum (preact (X m c) (EI m c) (Wt m c) (B1 m c)) :=
  (W2_arr m ρ c 6).trans ((Val0.final_sum (V1 (F := Ideal) m ρ) c).trans (congrArg Cert.Spec.colsum (preact_entry m ρ c)))

private theorem W2_sumsq (c : Dev nD) :
    (W2 (F := Ideal) m ρ c (Proc.devRef .tc main_v25_2) : FVec Ideal S1x128 .f32)
      = Cert.Spec.colsumsq (preact (X m c) (EI m c) (Wt m c) (B1 m c)) :=
  (W2_arr m ρ c 7).trans ((Val0.final_sumsq (V1 (F := Ideal) m ρ) c).trans (congrArg Cert.Spec.colsumsq (preact_entry m ρ c)))

private theorem W2_v23 (c : Dev nD) :
    (W2 (F := Ideal) m ρ c (Proc.devRef .tc main_v23) : FVec Ideal S1x128 .f32) = asRow (Gm m c) :=
  (W2_of_ne m ρ c main_v23 (by decide)).trans (W1_v23 m ρ c)

private theorem W2_v24 (c : Dev nD) :
    (W2 (F := Ideal) m ρ c (Proc.devRef .tc main_v24) : FVec Ideal S1x128 .f32) = asRow (Bt m c) :=
  (W2_of_ne m ρ c main_v24 (by decide)).trans (W1_v24 m ρ c)

private theorem W2_v1 (c : Dev nD) :
    (W2 (F := Ideal) m ρ c (Proc.devRef .tc main_v1) : (⟨S800000, .i32⟩ : BufTy).Contents (Elt Ideal)) = dstRow (EI m c) :=
  (W2_of_ne m ρ c main_v1 (by decide)).trans (W1_v1 m ρ c)

/-! ## Region 1's entry: the host operations between the regions, read at region 0's exit -/

private theorem V3_h (c : Dev nD) :
    (V3 (F := Ideal) m ρ c main_v25_0 : FVec Ideal S800000x128 .f32) = preact (X m c) (EI m c) (Wt m c) (B1 m c) := by
  show StableHlo.after hostOps1 _ (Proc.devRef .tc main_v25_0) = _
  after_results
  exact W2_h m ρ c

/-- The scale row. -/
private theorem V3_scale (c : Dev nD) :
    (V3 (F := Ideal) m ρ c main_v35 : FVec Ideal S1x128 .f32) = scale (preact (X m c) (EI m c) (Wt m c) (B1 m c)) (Gm m c) := by
  show StableHlo.after hostOps1 _ (Proc.devRef .tc main_v35) = _
  after_results
  rw [W2_sum, W2_sumsq, W2_v23]
  generalize preact (X m c) (EI m c) (Wt m c) (B1 m c) = h
  rfl

/-- The shift row. -/
private theorem V3_shift (c : Dev nD) :
    (V3 (F := Ideal) m ρ c main_v37 : FVec Ideal S1x128 .f32)
      = shift (preact (X m c) (EI m c) (Wt m c) (B1 m c)) (Gm m c) (Bt m c) := by
  show StableHlo.after hostOps1 _ (Proc.devRef .tc main_v37) = _
  after_results_simp
  rw [W2_sum, W2_sumsq, W2_v23, W2_v24]
  generalize preact (X m c) (EI m c) (Wt m c) (B1 m c) = h
  rfl

private theorem W3_v1 (c : Dev nD) :
    (W3 (F := Ideal) m ρ c (Proc.devRef .tc main_v1) : (⟨S800000, .i32⟩ : BufTy).Contents (Elt Ideal)) = dstRow (EI m c) := by
  show StableHlo.after hostOps1 _ (Proc.devRef .tc main_v1) = _
  after_results
  exact W2_v1 m ρ c

/-! ## Region 1's exit -/

private theorem W4_act (c : Dev nD) :
    (W4 (F := Ideal) m ρ c (Proc.devRef .tc main_v38) : FVec Ideal S800000x128 .f32)
      = actK (X m c) (EI m c) (Wt m c) (B1 m c) (Gm m c) (Bt m c) := by
  refine (W4_arr m ρ c 3).trans ((Val1.final_act (V3 (F := Ideal) m ρ) c).trans ?_)
  show Cert.Spec.act (V3 (F := Ideal) m ρ c main_v25_0) (V3 (F := Ideal) m ρ c main_v35) (V3 (F := Ideal) m ρ c main_v37)
    = Cert.Spec.act _ _ _
  rw [V3_h, V3_scale, V3_shift]

private theorem W4_v1 (c : Dev nD) :
    (W4 (F := Ideal) m ρ c (Proc.devRef .tc main_v1) : (⟨S800000, .i32⟩ : BufTy).Contents (Elt Ideal)) = dstRow (EI m c) :=
  (W4_of_ne m ρ c main_v1 (by decide)).trans (W3_v1 m ρ c)

/-! ## The last boundary: the host operations after region 1 -/

/-- The activation result. -/
theorem W5_act (c : Dev nD) :
    (W5 (F := Ideal) m ρ c (Proc.devRef .tc main_v38) : FVec Ideal S800000x128 .f32)
      = actK (X m c) (EI m c) (Wt m c) (B1 m c) (Gm m c) (Bt m c) := by
  show StableHlo.after hostOps2 _ (Proc.devRef .tc main_v38) = _
  after_results
  exact W4_act m ρ c

/-- The aggregated result. -/
theorem W5_out (c : Dev nD) :
    (W5 (F := Ideal) m ρ c (Proc.devRef .tc main_v50) : FVec Ideal S50000x128 .f32)
      = tail (EI m c) (actK (X m c) (EI m c) (Wt m c) (B1 m c) (Gm m c) (Bt m c)) := by
  show StableHlo.after hostOps2 _ (Proc.devRef .tc main_v50) = _
  after_results
  rw [W4_v1, W4_act]
  generalize actK (X m c) (EI m c) (Wt m c) (B1 m c) (Gm m c) (Bt m c) = a
  rfl

/-- The kernel program's run with its two results as closed terms of the arguments. -/
theorem run : θ_run defs (onTc (τ := τ) (main (F := Ideal))) ⟨m, fun _ => 0, ρ⟩ (fun r => ∀ c : Dev nD,
      r.2.mem ((c.tc : Thread nD τ).loc main_v50) = tail (EI m c) (actK (X m c) (EI m c) (Wt m c) (B1 m c) (Gm m c) (Bt m c))
      ∧ r.2.mem ((c.tc : Thread nD τ).loc main_v38) = actK (X m c) (EI m c) (Wt m c) (B1 m c) (Gm m c) (Bt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W5_out m ρ c), (h c).2.1.trans (W5_act m ρ c), (h c).2.2⟩)
    (Cert.KernelIdeal.Named.run_named (F := Ideal) m ρ)

end Cert.KernelIdeal.Fold

end
-- ==== Proof.KPoint.lean ====
/-
  The kernel's activation term read at an entry (e, j): unfolding the specification's array functions and reading the
  layout operations at an index (a transposed half of the weights at (k, j) is the weights at (j, k) or (j, 128 + k);
  a vector laid out as a row at (0, j) is the vector at j; a literal copied along a row is the literal) leaves the
  kernel's formula \`Cert.Spec.kerAt\` of the gathered rows and the other four arguments.
-/
import proofs.«145881_j9715216023597_1_alg».proof.Proof.KTerms
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Fold

open Idealize.ShloMosaic Idealize.ShloMosaic.TcCoe Idealize.SL.Sem Idealize.ShloMosaic.ValueIdx
open Cert.KernelIdeal Cert.KernelIdeal.Gen

/-! ## The layout operations at an index -/

/-- The first transposed half of the weights at (k, j) is the weights at (j, k). -/
theorem wHalfI_apply (w : FVec Ideal S128x256 .f32) (k j : Fin 128) :
    wHalfI w (ix2 k j) = w (ix2 j (⟨k.val, by omega⟩ : Fin 256)) := by
  unfold wHalfI
  refine (transpose_ix2_apply _ _ k j).trans ?_
  exact slice2_axis1_apply 0 w _ j k ⟨k.val, by omega⟩ (Nat.zero_add _).symm

/-- The second transposed half of the weights at (k, j) is the weights at (j, 128 + k). -/
theorem wHalfJ_apply (w : FVec Ideal S128x256 .f32) (k j : Fin 128) :
    wHalfJ w (ix2 k j) = w (ix2 j (⟨128 + k.val, by omega⟩ : Fin 256)) := by
  unfold wHalfJ
  refine (transpose_ix2_apply _ _ k j).trans ?_
  exact slice2_axis1_apply 128 w _ j k ⟨128 + k.val, by omega⟩ rfl

/-- A vector laid out as a row, at (0, j), is the vector at j. -/
theorem asRow_apply (v : FVec Ideal S128 .f32) (j : Fin 128) : asRow v (ix2 (0 : Fin 1) j) = v (ix1 j) := by
  unfold asRow
  exact shapeCast_a_1a_apply v _ 0 j

/-- A literal copied along a row is the literal at every entry. -/
theorem splat_apply (b : BitVec 32) (j : Fin 128) : splat b (ix2 (0 : Fin 1) j) = Ideal.ofBits .f32 b := rfl

/-! ## The rows of channel statistics at a channel, for any array of pre-activations -/

theorem mean_apply (h : FVec Ideal S800000x128 .f32) (j : Fin 128) :
    mean h (ix2 (0 : Fin 1) j) = Ideal.div (∑ e : Fin 800000, h (ix2 e j)) Cert.Spec.cnt := rfl

theorem scale_apply (h : FVec Ideal S800000x128 .f32) (g : FVec Ideal S128 .f32) (j : Fin 128) :
    scale h g (ix2 (0 : Fin 1) j)
      = g (ix1 j) * Ideal.rsqrt ((Ideal.div (∑ e : Fin 800000, h (ix2 e j) * h (ix2 e j)) Cert.Spec.cnt
          - mean h (ix2 (0 : Fin 1) j) * mean h (ix2 (0 : Fin 1) j)) + Cert.Spec.eps) := by
  unfold scale
  rw [mulf_apply, asRow_apply]
  rfl

theorem shift_apply (h : FVec Ideal S800000x128 .f32) (g bt : FVec Ideal S128 .f32) (j : Fin 128) :
    shift h g bt (ix2 (0 : Fin 1) j) = bt (ix1 j) - mean h (ix2 (0 : Fin 1) j) * scale h g (ix2 (0 : Fin 1) j) := by
  unfold shift
  rw [subf_apply, asRow_apply, mulf_apply]

/-! ## The pre-activations at an entry -/

/-- The pre-activation built from the two transposed halves and the bias row, at (e, j), is the kernel's: the two
    128-term contractions against the weights' row j, columns 0..127 and 128..255, plus the bias at j. -/
theorem lin_halves_apply (a b : FVec Ideal S800000x128 .f32) (w : FVec Ideal S128x256 .f32) (b1 : FVec Ideal S128 .f32)
    (e : Fin 800000) (j : Fin 128) :
    Cert.Spec.lin a b (wHalfI w) (wHalfJ w) (asRow b1) (ix2 e j) = Cert.Spec.klinAt a b w b1 e j := by
  rw [Cert.Spec.lin_apply]
  unfold Cert.Spec.linAt Cert.Spec.klinAt
  simp only [wHalfI_apply, wHalfJ_apply, asRow_apply]

/-! ## The activation at an entry -/

/-- The kernel's activation at an entry is the kernel's formula. -/
theorem actK_apply (x : FVec Ideal S50000x128 .f32) (ei : (⟨S2x800000, .i32⟩ : BufTy).Contents (Elt Ideal)) (w : FVec Ideal S128x256 .f32)
    (b1 g bt : FVec Ideal S128 .f32) (e : Fin 800000) (j : Fin 128) :
    actK x ei w b1 g bt (ix2 e j)
      = Cert.Spec.kerAt (gatherRows x (dstRow ei)) (gatherRows x (srcRow ei)) w b1 g bt e j := by
  unfold actK preact
  generalize gatherRows x (dstRow ei) = a
  generalize gatherRows x (srcRow ei) = b
  rw [Cert.Spec.act_apply, shift_apply, scale_apply, mean_apply]
  simp only [lin_halves_apply]
  rfl

end Cert.KernelIdeal.Fold

end
-- ==== Proof.RefRead.lean ====
/-
  The reference program's two results (exact instance), read from its generated run.
  The aggregated result is the segment mean (`tail`) of the activation result; the activation result at an entry
  (e, j) is the reference's formula `Cert.Spec.refAt` of the gathered rows and the other arguments: the joined
  256-term row of the edge contracted with the weights' row j plus the bias, minus the channel's mean over all
  edges, times the inverse root of the channel's mean squared deviation plus the offset, times the gain, plus the
  offset row, clamped at zero.
-/
import proofs.«145881_j9715216023597_1_alg».proof.Proof.Gen.ReferenceIdeal.Read
import proofs.«145881_j9715216023597_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefVal

open Idealize.ShloMosaic Idealize.ShloMosaic.TcCoe Idealize.SL.Sem Idealize.ShloMosaic.ValueIdx
open Cert.ReferenceIdeal Cert.ReferenceIdeal.Gen

/-- Row 1 of the edge list (each edge's target node) and row 0 (its source node), as vectors. -/
def dstRow (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000
def srcRow (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000
/-- A vector of node numbers as a column of start indices, a negative number wrapped once by the node count. -/
def wrapIdx (r : (⟨S800000, .i32⟩ : BufTy).Contents (Elt Ideal)) : (⟨S800000x1, .i32⟩ : BufTy).Contents (Elt Ideal) :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)
/-- The node features' rows at those start indices. -/
def gatherRows (x : FVec Ideal S50000x128 .f32) (r : (⟨S800000, .i32⟩ : BufTy).Contents (Elt Ideal)) : FVec Ideal S800000x128 .f32 :=
  Host.gather gather_S50000x128_S800000x1_S800000x128_1_0_n_n_0_1_1128 x (wrapIdx r)
/-- The segment mean of an edge array over the target nodes. -/
def tail (ei : (⟨S2x800000, .i32⟩ : BufTy).Contents (Elt Ideal)) (a : FVec Ideal S800000x128 .f32) : FVec Ideal S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 (dstRow ei)) a)
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 (dstRow ei))
            (broadcastInDim S800000 ![] bcast_S_S800000 (constant S_ .f32 0x3F800000#32)))
          (broadcastInDim S50000 ![] bcast_S_S50000 (constant S_ .f32 0x3F800000#32)))))

/-! ## The reference's stages as functions of the six arguments, read at an entry -/

section stages
open Cert.ReferenceIdeal.Read

variable (x0 : FVec Ideal S50000x128 .f32) (x1 : (⟨S2x800000, .i32⟩ : BufTy).Contents (Elt Ideal))
  (x2 : FVec Ideal S128x256 .f32) (x3 x4 x5 : FVec Ideal S128 .f32)

/-- The first gather reads the node features at the wrapped target nodes. -/
private theorem gather_dst : val_main_v10 (F := Ideal) x0 x1 = gatherRows x0 (dstRow x1) := by
  unfold val_main_v10 val_main_v9 val_main_v8 val_main_v7 val_main_v6 val_main_v5 val_main_v4 val_main_v3 val_main_v2
    val_main_c val_main_c_0 gatherRows wrapIdx dstRow
  rfl

/-- The second gather reads the node features at the wrapped source nodes. -/
private theorem gather_src : val_main_v17 (F := Ideal) x0 x1 = gatherRows x0 (srcRow x1) := by
  unfold val_main_v17 val_main_v16 val_main_v15 val_main_v14 val_main_v13 val_main_v12 val_main_v11 val_main_v1 val_main_v0
    val_main_c_1 val_main_c_2 gatherRows wrapIdx srcRow
  rfl

/-- Two edge arrays joined along the channel axis, at an entry: the first array on the first 128 coordinates, the
    second, shifted by 128, on the rest. -/
private theorem concat_apply (a b : FVec Ideal S800000x128 .f32) (e : Fin 800000) (k : Fin 256) :
    concatenate S800000x256 1 [⟨S800000x128, a⟩, ⟨S800000x128, b⟩] concatenates_S800000x128_S800000x128_S800000x256_d1 (ix2 e k)
      = Cert.Spec.catAt a b e k := by
  unfold Cert.Spec.catAt
  by_cases h : k.val < 128
  · rw [dif_pos h]
    exact concatenate_pair_apply_left 1 a b concatenates_S800000x128_S800000x128_S800000x256_d1 (ix2 e k) rfl
      (ix2 e (⟨k.val, h⟩ : Fin 128)) (fun c => match c with | ⟨0, _⟩ => rfl | ⟨1, _⟩ => rfl)
  · rw [dif_neg h]
    exact concatenate_pair_apply_right 1 a b concatenates_S800000x128_S800000x128_S800000x256_d1 (ix2 e k) rfl rfl
      (ix2 e (⟨k.val - 128, by omega⟩ : Fin 128))
      (fun c => match c with | ⟨0, _⟩ => fun _ => rfl | ⟨1, _⟩ => fun hc => absurd rfl hc)
      (by show k.val - 128 + 128 = k.val; omega)

/-- The joined row of an edge, as the specification spells it. -/
private theorem cat_apply (e : Fin 800000) (k : Fin 256) :
    val_main_v18 (F := Ideal) x0 x1 (ix2 e k) = Cert.Spec.catAt (gatherRows x0 (dstRow x1)) (gatherRows x0 (srcRow x1)) e k := by
  unfold val_main_v18
  rw [gather_dst, gather_src]
  exact concat_apply _ _ e k

/-- The transposed weights at (k, j) are the weights at (j, k). -/
private theorem wT_apply (k : Fin 256) (j : Fin 128) : val_main_v19 (F := Ideal) x2 (ix2 k j) = x2 (ix2 j k) := by
  rw [val_main_v19_apply]
  exact congrArg x2 (funext fun a => match a with | ⟨0, _⟩ => rfl | ⟨1, _⟩ => rfl)

end stages

section formulas
open Cert.ReferenceIdeal.Read

variable (x0 : FVec Ideal S50000x128 .f32) (x1 : (⟨S2x800000, .i32⟩ : BufTy).Contents (Elt Ideal))
  (x2 : FVec Ideal S128x256 .f32) (x3 x4 x5 : FVec Ideal S128 .f32)

/-- The pre-activation at an entry: the joined row of the edge contracted with the weights' row j, plus the bias. -/
private theorem rlin_apply (e : Fin 800000) (j : Fin 128) :
    val_main_v23 (F := Ideal) x0 x1 x2 x3 (ix2 e j)
      = Cert.Spec.rlinAt (gatherRows x0 (dstRow x1)) (gatherRows x0 (srcRow x1)) x2 x3 e j := by
  have hl : ∀ k : Fin 256, lidx_main_v20 (ix2 e j) k = ix2 e k := fun k =>
    funext fun a => match a with | ⟨0, _⟩ => rfl | ⟨1, _⟩ => rfl
  have hr : ∀ k : Fin 256, ridx_main_v20 (ix2 e j) k = ix2 k j := fun k =>
    funext fun a => match a with | ⟨0, _⟩ => rfl | ⟨1, _⟩ => rfl
  have hb : idx_main_v21 (idx_main_v22 (ix2 e j)) = ix1 j := funext fun a => match a with | ⟨0, _⟩ => rfl
  rw [val_main_v23_apply, val_main_v20_apply, val_main_v22_apply, val_main_v21_apply, hb, Ideal.addf_def]
  unfold Cert.Spec.rlinAt
  refine congrArg (· + x3 (ix1 j)) (Finset.sum_congr rfl fun k _ => ?_)
  rw [hl k, hr k, cat_apply, wT_apply]

/-- The channel's mean over all edges. -/
private theorem rmean_apply (j : Fin 128) :
    val_main_v26 (F := Ideal) x0 x1 x2 x3 (ix1 j)
      = Cert.Spec.rmeanAt (gatherRows x0 (dstRow x1)) (gatherRows x0 (srcRow x1)) x2 x3 j := by
  have hi : ∀ e : Fin 800000, idx_main_v24 (ix1 j) e = ix2 e j := fun e =>
    funext fun a => match a with | ⟨0, _⟩ => rfl | ⟨1, _⟩ => rfl
  rw [val_main_v26_apply, val_main_v24_apply, val_main_v25_apply, val_main_cst_3_apply, val_main_cst_apply,
    Ideal.hostDivf_def, Ideal.ofBits_def, Ideal.ofBits_def]
  unfold Cert.Spec.rmeanAt
  refine congrArg (fun s => Ideal.div (Cert.Spec.zero + s) Cert.Spec.cnt) (Finset.sum_congr rfl fun e _ => ?_)
  rw [hi e, rlin_apply]

/-- The channel's mean squared deviation over all edges. -/
private theorem rvar_apply (j : Fin 128) :
    val_main_v33 (F := Ideal) x0 x1 x2 x3 (ix1 j)
      = Cert.Spec.rvarAt (gatherRows x0 (dstRow x1)) (gatherRows x0 (srcRow x1)) x2 x3 j := by
  have hi : ∀ e : Fin 800000, idx_main_v31 (ix1 j) e = ix2 e j := fun e =>
    funext fun a => match a with | ⟨0, _⟩ => rfl | ⟨1, _⟩ => rfl
  have hm : ∀ e : Fin 800000, idx_main_v27 (idx_main_v28 (ix2 e j)) = ix1 j := fun e =>
    funext fun a => match a with | ⟨0, _⟩ => rfl
  rw [val_main_v33_apply, val_main_v31_apply, val_main_v32_apply, val_main_cst_5_apply, val_main_cst_4_apply,
    Ideal.hostDivf_def, Ideal.ofBits_def, Ideal.ofBits_def]
  unfold Cert.Spec.rvarAt
  refine congrArg (fun s => Ideal.div (Cert.Spec.zero + s) Cert.Spec.cnt) (Finset.sum_congr rfl fun e _ => ?_)
  rw [hi e, val_main_v30_apply, val_main_v29_apply, val_main_v28_apply, val_main_v27_apply, hm e, rlin_apply, rmean_apply,
    Ideal.mulf_def, Ideal.subf_def]

/-- The activation stage at an entry is the reference's formula. -/
private theorem stage_apply (e : Fin 800000) (j : Fin 128) :
    val_main_v49 (F := Ideal) x0 x1 x2 x3 x4 x5 (ix2 e j)
      = Cert.Spec.refAt (gatherRows x0 (dstRow x1)) (gatherRows x0 (srcRow x1)) x2 x3 x4 x5 e j := by
  have hm : idx_main_v34 (idx_main_v35 (ix2 e j)) = ix1 j := funext fun a => match a with | ⟨0, _⟩ => rfl
  have hv : idx_main_v40 (idx_main_v41 (ix2 e j)) = ix1 j := funext fun a => match a with | ⟨0, _⟩ => rfl
  have hg : idx_main_v43 (idx_main_v44 (ix2 e j)) = ix1 j := funext fun a => match a with | ⟨0, _⟩ => rfl
  have ht : idx_main_v46 (idx_main_v47 (ix2 e j)) = ix1 j := funext fun a => match a with | ⟨0, _⟩ => rfl
  rw [val_main_v49_apply, val_main_v48_apply, val_main_v45_apply, val_main_v42_apply, val_main_v36_apply,
    val_main_v35_apply, val_main_v34_apply, hm, val_main_v41_apply, val_main_v40_apply, hv, val_main_v39_apply,
    val_main_v38_apply, val_main_v37_apply, val_main_cst_6_apply, val_main_v44_apply, val_main_v43_apply, hg,
    val_main_v47_apply, val_main_v46_apply, ht, val_main_call0_v0_apply, val_main_call0_cst_apply,
    rlin_apply, rmean_apply, rvar_apply,
    Ideal.maximumf_def, Ideal.addf_def, Ideal.mulf_def, Ideal.mulf_def, Ideal.subf_def, Ideal.hostUnary_rsqrt_def,
    Ideal.addf_def, Ideal.ofBits_def, Ideal.ofBits_def]
  rfl

/-- The aggregation stage is the segment mean of the activation stage. -/
private theorem seg_eq :
    val_main_v61 (F := Ideal) x0 x1 x2 x3 x4 x5 = tail x1 (val_main_v49 (F := Ideal) x0 x1 x2 x3 x4 x5) := by
  unfold val_main_v61 val_main_v60 val_main_v59 val_main_v58 val_main_v57 val_main_v56 val_main_v55 val_main_v54 val_main_v53
    val_main_v52 val_main_v51 val_main_v50 val_main_v3 val_main_v2 val_main_cst_7 val_main_cst_8 val_main_cst_9 val_main_cst_10
    tail dstRow
  rfl

end formulas

variable (m : (ℓ : Loc nD τ sig) → Buf (Elt Ideal) ℓ)

/-- The six arguments' launch contents at their literal types. -/
abbrev X (c : Dev nD) : FVec Ideal S50000x128 .f32 := m ((c.tc : Thread nD τ).loc main_arg0)
abbrev EI (c : Dev nD) : (⟨S2x800000, .i32⟩ : BufTy).Contents (Elt Ideal) := m ((c.tc : Thread nD τ).loc main_arg1)
abbrev Wt (c : Dev nD) : FVec Ideal S128x256 .f32 := m ((c.tc : Thread nD τ).loc main_arg2)
abbrev B1 (c : Dev nD) : FVec Ideal S128 .f32 := m ((c.tc : Thread nD τ).loc main_arg3)
abbrev Gm (c : Dev nD) : FVec Ideal S128 .f32 := m ((c.tc : Thread nD τ).loc main_arg4)
abbrev Bt (c : Dev nD) : FVec Ideal S128 .f32 := m ((c.tc : Thread nD τ).loc main_arg5)
/-- The activation result of the generated run, at its literal type. -/
abbrev actR (c : Dev nD) : FVec Ideal S800000x128 .f32 := Cert.ReferenceIdeal.Value.res_main_v49 (F := Ideal) m c

/-- The aggregated result is the segment mean of the activation result. -/
theorem out_eq (c : Dev nD) :
    (Cert.ReferenceIdeal.Value.res_main_v61 (F := Ideal) m c : FVec Ideal S50000x128 .f32) = tail (EI m c) (actR m c) :=
  (Cert.ReferenceIdeal.Read.val_main_v61_eq (F := Ideal) m c).trans
    ((seg_eq (X m c) (EI m c) (Wt m c) (B1 m c) (Gm m c) (Bt m c)).trans
      (congrArg (tail (EI m c)) (Cert.ReferenceIdeal.Read.val_main_v49_eq (F := Ideal) m c).symm))

/-- The activation result at an entry is the reference's formula. -/
theorem act_apply (c : Dev nD) (e : Fin 800000) (j : Fin 128) :
    actR m c (ix2 e j)
      = Cert.Spec.refAt (gatherRows (X m c) (dstRow (EI m c))) (gatherRows (X m c) (srcRow (EI m c))) (Wt m c) (B1 m c) (Gm m c) (Bt m c) e j :=
  (congrFun (Cert.ReferenceIdeal.Read.val_main_v49_eq (F := Ideal) m c) (ix2 e j)).trans
    (stage_apply (X m c) (EI m c) (Wt m c) (B1 m c) (Gm m c) (Bt m c) e j)

end Cert.ReferenceIdeal.RefVal

end
-- ==== Proof.Consts.lean ====
/-
  The float literals of the two programs, as the extended reals their bit patterns denote on the exact instance:
  the zero, the one, the edge count 800000 (the divisor of both means) and the variance offset, of which only
  positivity is used.  Stated once here so that no other module unfolds the decoding of a pattern.
-/
import Idealize.ShloMosaic.PureOps.Ideal

noncomputable section

namespace Cert.Consts

open Idealize.ShloMosaic

/-- The pattern of `+0.0` denotes `0`. -/
theorem ofBits_zero : Ideal.ofBits .f32 0x00000000#32 = 0 := by
  simp [Ideal.ofBits, Ideal.ieee]

/-- The pattern of `800000.0` (2¹⁹ · 1.52587890625) denotes the real `800000`: the number of edges. -/
theorem ofBits_count : Ideal.ofBits .f32 0x49435000#32 = ((800000 : ℝ) : EReal) := by
  simp [Ideal.ofBits, Ideal.ieee, -EReal.coe_mul]; norm_num

/-- The variance offset's pattern denotes a positive real (its exact value, the binary float nearest 10⁻⁵, is never
    needed: both programs add the same word). -/
theorem ofBits_eps : ∃ ε : ℝ, 0 < ε ∧ Ideal.ofBits .f32 0x3727C5AC#32 = ((ε : ℝ) : EReal) := by
  refine ⟨_, ?_, by simp [Ideal.ofBits, Ideal.ieee, -EReal.coe_mul]; rfl⟩
  norm_num

end Cert.Consts

end
-- ==== Proof.Algebra.lean ====
/-
  The one law that joins the two programs: over finite reals the kernel's formula for an activation entry equals the
  reference's.  Three facts:  a 256-term contraction of the joined row splits into the two 128-term contractions;
  the mean of squares minus the squared mean is the mean squared deviation, BECAUSE the divisor 800000 is the number
  of edges summed over; and  h·(g·r) + (bt − μ·(g·r)) = ((h − μ)·r)·g + bt  with r the (finite, positive) inverse root
  of a positive number.  All three need every entry finite: on the extended reals the distributive law fails at ±∞.
-/
import proofs.«145881_j9715216023597_1_alg».proof.Proof.Spec
import proofs.«145881_j9715216023597_1_alg».proof.Proof.Consts
import Mathlib.Algebra.BigOperators.Fin
import Mathlib.Tactic.FieldSimp
import Mathlib.Tactic.Ring

noncomputable section

namespace Cert.Algebra

open Idealize.ShloMosaic Idealize.ShloMosaic.ValueIdx Cert.Spec

/-- Every entry of an array of extended reals is a real number. -/
def Fin' {s : Shape} (v : FVec Ideal s .f32) : Prop := ∀ i, ∃ r : ℝ, v i = ((r : ℝ) : EReal)

/-! ## In the reals, over any finite index type -/

/-- The mean of the squares minus the square of the mean is the mean squared deviation from the mean, when the
    divisor N is the number of terms: expanding (h i − μ)² and summing leaves  Σ h² − 2 μ S + N μ²,  and μ = S / N. -/
theorem mean_sq_sub_sq_mean {ι : Type} [Fintype ι] (h : ι → ℝ) (N : ℝ) (hcard : (Fintype.card ι : ℝ) = N)
    (hN : N ≠ 0) :
    (∑ i, h i * h i) * (1 / N) - ((∑ i, h i) * (1 / N)) * ((∑ i, h i) * (1 / N))
      = (∑ i, (h i - (∑ i, h i) * (1 / N)) * (h i - (∑ i, h i) * (1 / N))) * (1 / N) := by
  have expand : ∀ μ : ℝ, ∑ i, (h i - μ) * (h i - μ) = (∑ i, h i * h i) - 2 * μ * (∑ i, h i) + N * (μ * μ) := by
    intro μ
    have sq : ∀ i, (h i - μ) * (h i - μ) = h i * h i - 2 * μ * h i + μ * μ := fun i => by ring
    simp only [sq, Finset.sum_add_distrib, Finset.sum_sub_distrib, ← Finset.mul_sum, Finset.sum_const,
      Finset.card_univ, nsmul_eq_mul, hcard]
    ring
  rw [expand]
  field_simp
  ring

/-- A mean of squares is not negative. -/
theorem mean_sq_dev_nonneg {ι : Type} [Fintype ι] (h : ι → ℝ) (μ N : ℝ) (hN : 0 < N) :
    0 ≤ (∑ i, (h i - μ) * (h i - μ)) * (1 / N) :=
  mul_nonneg (Finset.sum_nonneg fun i _ => mul_self_nonneg _) (by positivity)

/-! ## Between the reals and the extended reals -/

/-- The inclusion of the reals commutes with finite sums. -/
theorem coe_sum {ι : Type} (s : Finset ι) (f : ι → ℝ) :
    (∑ i ∈ s, ((f i : ℝ) : EReal)) = ((∑ i ∈ s, f i : ℝ) : EReal) := by
  classical
  refine Finset.induction_on s (by simp) ?_
  intro i s hi ih
  rw [Finset.sum_insert hi, Finset.sum_insert hi, ih, EReal.coe_add]

/-- Division by the edge count, on a real. -/
theorem div_cnt (x : ℝ) : Ideal.div (x : EReal) cnt = ((x * (1 / 800000) : ℝ) : EReal) := by
  rw [show cnt = ((800000 : ℝ) : EReal) from Cert.Consts.ofBits_count, Ideal.div_coe (by norm_num), ← EReal.coe_mul]

/-! ## The joined contraction is the two half contractions -/

theorem rlin_eq_klin (a b : FVec Ideal SE .f32) (w : FVec Ideal SW2 .f32) (b1 : FVec Ideal SV .f32)
    (e : Fin 800000) (j : Fin 128) : rlinAt a b w b1 e j = klinAt a b w b1 e j := by
  unfold rlinAt klinAt
  congr 1
  have split := Fin.sum_univ_add (a := 128) (b := 128) (fun k : Fin (128 + 128) => catAt a b e k * w (ix2 j k))
  refine split.trans (congrArg₂ (· + ·) (Finset.sum_congr rfl fun k _ => ?_) (Finset.sum_congr rfl fun k _ => ?_))
  · have hk : (Fin.castAdd 128 k).val < 128 := k.isLt
    show catAt a b e (Fin.castAdd 128 k) * w (ix2 j (Fin.castAdd 128 k)) = _
    unfold catAt
    rw [dif_pos hk]
    rfl
  · have hk : ¬ (Fin.natAdd 128 k).val < 128 := by simp [Fin.natAdd]
    show catAt a b e (Fin.natAdd 128 k) * w (ix2 j (Fin.natAdd 128 k)) = _
    unfold catAt
    rw [dif_neg hk]
    have : (⟨(Fin.natAdd 128 k).val - 128, by have := (Fin.natAdd 128 k).isLt; omega⟩ : Fin 128) = k :=
      Fin.ext (by simp [Fin.natAdd])
    rw [this]
    rfl

/-- Every pre-activation of a finite input is a real number. -/
theorem klin_real (a b : FVec Ideal SE .f32) (w : FVec Ideal SW2 .f32) (b1 : FVec Ideal SV .f32)
    (ha : Fin' a) (hb : Fin' b) (hw : Fin' w) (hb1 : Fin' b1) (e : Fin 800000) (j : Fin 128) :
    ∃ r : ℝ, klinAt a b w b1 e j = ((r : ℝ) : EReal) := by
  choose a' ha' using ha
  choose b' hb' using hb
  choose w' hw' using hw
  choose c' hc' using hb1
  refine ⟨((∑ k : Fin 128, a' (ix2 e k) * w' (ix2 j (⟨k.val, by omega⟩ : Fin 256)))
    + (∑ k : Fin 128, b' (ix2 e k) * w' (ix2 j (⟨128 + k.val, by omega⟩ : Fin 256)))) + c' (ix1 j), ?_⟩
  unfold klinAt
  simp only [ha', hb', hw', hc', ← EReal.coe_mul, coe_sum, ← EReal.coe_add]

/-- THE LAW: on finite arrays the kernel's activation entry is the reference's. -/
theorem ker_eq_ref (a b : FVec Ideal SE .f32) (w : FVec Ideal SW2 .f32) (b1 g bt : FVec Ideal SV .f32)
    (ha : Fin' a) (hb : Fin' b) (hw : Fin' w) (hb1 : Fin' b1) (hg : Fin' g) (hbt : Fin' bt)
    (e : Fin 800000) (j : Fin 128) :
    kerAt a b w b1 g bt e j = refAt a b w b1 g bt e j := by
  -- the pre-activations of channel j, as a real function h of the edge; both programs have the same ones
  choose h hh using fun e' => klin_real a b w b1 ha hb hw hb1 e' j
  have hr : ∀ e', rlinAt a b w b1 e' j = ((h e' : ℝ) : EReal) := fun e' => (rlin_eq_klin a b w b1 e' j).trans (hh e')
  obtain ⟨g', hg'⟩ := hg (ix1 j)
  obtain ⟨bt', hbt'⟩ := hbt (ix1 j)
  obtain ⟨ε, hε, heps⟩ := Cert.Consts.ofBits_eps
  have hzero : zero = (0 : EReal) := Cert.Consts.ofBits_zero
  -- the divisor is the number of edges
  have hcard : ((Fintype.card (Fin 800000) : ℕ) : ℝ) = 800000 := by rw [Fintype.card_fin]; norm_num
  -- the mean μ, the same for both
  obtain ⟨μ, hμ⟩ : ∃ μ : ℝ, μ = (∑ e', h e') * (1 / 800000) := ⟨_, rfl⟩
  have hkm : kmeanAt a b w b1 j = ((μ : ℝ) : EReal) := by
    unfold kmeanAt
    simp only [hh]
    rw [coe_sum, div_cnt, hμ]
  have hrm : rmeanAt a b w b1 j = ((μ : ℝ) : EReal) := by
    unfold rmeanAt
    simp only [hr]
    rw [hzero, zero_add, coe_sum, div_cnt, hμ]
  -- the variance v: the reference's mean squared deviation, which the kernel reaches as  E[h²] − μ²
  obtain ⟨v, hv⟩ : ∃ v : ℝ, v = (∑ e', (h e' - μ) * (h e' - μ)) * (1 / 800000) := ⟨_, rfl⟩
  have hrv : rvarAt a b w b1 j = ((v : ℝ) : EReal) := by
    unfold rvarAt
    rw [hrm]
    simp only [hr, ← EReal.coe_sub, ← EReal.coe_mul]
    rw [hzero, zero_add, coe_sum, div_cnt, hv]
  have hkv : kvarAt a b w b1 j = ((v : ℝ) : EReal) := by
    unfold kvarAt
    rw [hkm]
    simp only [hh, ← EReal.coe_mul]
    rw [coe_sum, div_cnt, ← EReal.coe_sub, hv, hμ, mean_sq_sub_sq_mean h 800000 hcard (by norm_num)]
  -- v ≥ 0, so v + ε > 0 and its inverse root is a real r
  have hv0 : 0 ≤ v := hv ▸ mean_sq_dev_nonneg h μ 800000 (by norm_num)
  have hpos : 0 < v + ε := add_pos_of_nonneg_of_pos hv0 hε
  have hrs : Ideal.rsqrt (((v : ℝ) : EReal) + eps) = (((Real.sqrt (v + ε))⁻¹ : ℝ) : EReal) := by
    rw [show eps = ((ε : ℝ) : EReal) from heps, ← EReal.coe_add, Ideal.rsqrt_coe, if_neg (not_lt.2 hpos.le),
      if_neg hpos.ne']
  -- the folded scale and shift against the centred form: a ring identity in ℝ
  unfold kerAt refAt kshiftAt kscaleAt
  rw [hkv, hrv, hkm, hrm, hh e, hr e, hrs, hg', hbt']
  simp only [← EReal.coe_mul, ← EReal.coe_sub, ← EReal.coe_add]
  have fold : h e * (g' * (Real.sqrt (v + ε))⁻¹) + (bt' - μ * (g' * (Real.sqrt (v + ε))⁻¹))
      = (h e - μ) * (Real.sqrt (v + ε))⁻¹ * g' + bt' := by ring
  rw [fold]

end Cert.Algebra

end
-- ==== Proof.Finite.lean ====
/-
  Finiteness.  The precondition says every entry of the five float arguments has absolute value below +∞; on the
  exact instance that makes every entry a real number.  A gather of rows only copies entries of its operand, so the
  gathered arrays are finite too, whatever the start indices.
-/
import proofs.«145881_j9715216023597_1_alg».proof.Defs
import proofs.«145881_j9715216023597_1_alg».proof.Proof.Gen.Pre_finite_inputs
import proofs.«145881_j9715216023597_1_alg».proof.Proof.Algebra
import Idealize.ShloMosaic.Lib.ReduceAll
import Idealize.ShloMosaic.Lib.ValueIdx

noncomputable section

namespace Cert.Finite

open Idealize.ShloMosaic Idealize.ShloMosaic.TcCoe Idealize.SL.Sem Idealize.ShloMosaic.ValueIdx
open Cert.KernelIdeal

/-- The pattern of the positive infinity denotes the top of the extended reals. -/
theorem ofBits_inf : Ideal.ofBits .f32 0x7F800000#32 = (⊤ : EReal) := by
  simp [Ideal.ofBits, Ideal.ieee]

/-- An extended real whose absolute value lies strictly below +∞ is a real number: at either infinity the absolute
    value is +∞ itself. -/
theorem real_of_abs_lt_inf (x : EReal)
    (hx : Ideal.cmp .olt (max x (-x)) (Ideal.ofBits .f32 0x7F800000#32) = 1#1) : ∃ r : ℝ, x = ((r : ℝ) : EReal) := by
  rw [ofBits_inf] at hx
  induction x using EReal.rec with
  | bot => exact absurd hx (by simp [Ideal.cmp])
  | coe r => exact ⟨r, rfl⟩
  | top => exact absurd hx (by simp [Ideal.cmp])

/-- One conjunct of the precondition, for an array of any shape: if the conjunction over all entries of
    "|x| < +∞" came out true, every entry of x is a real number. -/
theorem fin_of_all {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel) (init : IVec (⟨0, ![]⟩ : Shape) 1)
    (hall : Host.reduce IntOp.andi
      (cmpf .olt (Host.absf x) (broadcastInDim s ![] hb (constant (F := Ideal) (⟨0, ![]⟩ : Shape) .f32 0x7F800000#32)))
      init hr hu ValueIdx.ix0 = 1#1) : Cert.Algebra.Fin' x := by
  haveI : Subsingleton (⟨0, ![]⟩ : Shape).Idx := ⟨fun a b => funext fun d => d.elim0⟩
  intro i
  exact real_of_abs_lt_inf (x i) (Host.reduce_andi_all _ init hr hu ValueIdx.ix0 hall i)

/-- Under the precondition the five float arguments hold real numbers. -/
theorem of_pre [hP : Cert.Pre_finite_inputs.Facts] (m : (ℓ : Loc nD τ sig) → Buf (Elt Ideal) ℓ) (h : Cert.Pre_KernelIdeal m) (c : Dev nD) :
    Cert.Algebra.Fin' (m ((c.tc : Thread nD τ).loc main_arg0) : FVec Ideal S50000x128 .f32)
    ∧ Cert.Algebra.Fin' (m ((c.tc : Thread nD τ).loc main_arg2) : FVec Ideal S128x256 .f32)
    ∧ Cert.Algebra.Fin' (m ((c.tc : Thread nD τ).loc main_arg3) : FVec Ideal S128 .f32)
    ∧ Cert.Algebra.Fin' (m ((c.tc : Thread nD τ).loc main_arg4) : FVec Ideal S128 .f32)
    ∧ Cert.Algebra.Fin' (m ((c.tc : Thread nD τ).loc main_arg5) : FVec Ideal S128 .f32) := by
  have e := congrFun (h c) ValueIdx.ix0
  dsimp only [Cert.Pre_finite_inputs.fn, Cert.Pre_finite_inputs.fn_part1] at e
  obtain ⟨e0234, e5⟩ := IntOp.andi_eq_one.1 e
  obtain ⟨e023, e4⟩ := IntOp.andi_eq_one.1 e0234
  obtain ⟨e02, e3⟩ := IntOp.andi_eq_one.1 e023
  obtain ⟨e0, e2⟩ := IntOp.andi_eq_one.1 e02
  exact ⟨fin_of_all _ _ _ _ _ e0, fin_of_all _ _ _ _ _ e2, fin_of_all _ _ _ _ _ e3, fin_of_all _ _ _ _ _ e4,
    fin_of_all _ _ _ _ _ e5⟩

/-- A gather only copies entries of its operand, so a gather of a finite array is finite, whatever the start indices
    and whatever the gather's dimension numbers. -/
theorem gather_fin {s si t : Shape} {w : Nat} (d : GatherDims s si t) (x : FVec Ideal s .f32) (hx : Cert.Algebra.Fin' x)
    (idx : IVec si w) : Cert.Algebra.Fin' (Host.gather d x idx : FVec Ideal t .f32) :=
  fun j => hx _

end Cert.Finite

end
-- ==== Proof.Bridge.lean ====
/-
  The two programs compute the same two results (exact instance, under the finiteness precondition).
  Both gather the same rows (the same operations of the node features and the edge list), and both end with the same
  segment mean over the target nodes; between those, the kernel's activation entry is `Cert.Spec.kerAt` of the
  gathered rows and the reference's is `Cert.Spec.refAt` of the same, and the two agree on finite arrays.
-/
import proofs.«145881_j9715216023597_1_alg».proof.Defs
import proofs.«145881_j9715216023597_1_alg».proof.Proof.Gen.ReferenceIdeal.Run
import proofs.«145881_j9715216023597_1_alg».proof.Proof.KFold
import proofs.«145881_j9715216023597_1_alg».proof.Proof.KPoint
import proofs.«145881_j9715216023597_1_alg».proof.Proof.RefRead
import proofs.«145881_j9715216023597_1_alg».proof.Proof.Algebra
import proofs.«145881_j9715216023597_1_alg».proof.Proof.Finite

noncomputable section

namespace Cert.Proof.Bridge

open Idealize.ShloMosaic Idealize.ShloMosaic.TcCoe Idealize.SL.Sem Idealize.ShloMosaic.ValueIdx

/-! ## The shared host operations are the same functions in both programs -/

theorem dstRow_eq (ei : (⟨Cert.KernelIdeal.S2x800000, .i32⟩ : BufTy).Contents (Elt Ideal)) :
    Cert.ReferenceIdeal.RefVal.dstRow ei = Cert.KernelIdeal.Fold.dstRow ei := rfl
theorem srcRow_eq (ei : (⟨Cert.KernelIdeal.S2x800000, .i32⟩ : BufTy).Contents (Elt Ideal)) :
    Cert.ReferenceIdeal.RefVal.srcRow ei = Cert.KernelIdeal.Fold.srcRow ei := rfl
theorem gatherRows_eq (x : FVec Ideal Cert.KernelIdeal.S50000x128 .f32) (r : (⟨Cert.KernelIdeal.S800000, .i32⟩ : BufTy).Contents (Elt Ideal)) :
    Cert.ReferenceIdeal.RefVal.gatherRows x r = Cert.KernelIdeal.Fold.gatherRows x r := rfl
theorem tail_eq (ei : (⟨Cert.KernelIdeal.S2x800000, .i32⟩ : BufTy).Contents (Elt Ideal)) (a : FVec Ideal Cert.KernelIdeal.S800000x128 .f32) :
    Cert.ReferenceIdeal.RefVal.tail ei a = Cert.KernelIdeal.Fold.tail ei a := rfl

/-! ## The activation arrays agree -/

/-- From memories that agree on the arguments, of which the kernel's is finite, the reference's activation array is
    the kernel's. -/
theorem act_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : Cert.ReferenceIdeal.RefVal.X m' c = Cert.KernelIdeal.Fold.X m c)
    (h1 : Cert.ReferenceIdeal.RefVal.EI m' c = Cert.KernelIdeal.Fold.EI m c)
    (h2 : Cert.ReferenceIdeal.RefVal.Wt m' c = Cert.KernelIdeal.Fold.Wt m c)
    (h3 : Cert.ReferenceIdeal.RefVal.B1 m' c = Cert.KernelIdeal.Fold.B1 m c)
    (h4 : Cert.ReferenceIdeal.RefVal.Gm m' c = Cert.KernelIdeal.Fold.Gm m c)
    (h5 : Cert.ReferenceIdeal.RefVal.Bt m' c = Cert.KernelIdeal.Fold.Bt m c) :
    Cert.ReferenceIdeal.RefVal.actR m' c
      = Cert.KernelIdeal.Fold.actK (Cert.KernelIdeal.Fold.X m c) (Cert.KernelIdeal.Fold.EI m c) (Cert.KernelIdeal.Fold.Wt m c)
          (Cert.KernelIdeal.Fold.B1 m c) (Cert.KernelIdeal.Fold.Gm m c) (Cert.KernelIdeal.Fold.Bt m c) := by
  obtain ⟨fx, fw, fb1, fg, fbt⟩ := Cert.Finite.of_pre m hpre c
  funext i
  obtain ⟨e, j, rfl⟩ : ∃ (e : Fin 800000) (j : Fin 128), i = ix2 e j :=
    ⟨⟨(i 0).val, idx2_lt0 i⟩, ⟨(i 1).val, idx2_lt1 i⟩, eq_ix2 i⟩
  rw [Cert.ReferenceIdeal.RefVal.act_apply, Cert.KernelIdeal.Fold.actK_apply, h0, h1, h2, h3, h4, h5,
    dstRow_eq, srcRow_eq, gatherRows_eq, gatherRows_eq]
  exact (Cert.Algebra.ker_eq_ref _ _ _ _ _ _
    (Cert.Finite.gather_fin _ _ fx _) (Cert.Finite.gather_fin _ _ fx _) fw fb1 fg fbt e j).symm

end Cert.Proof.Bridge

end
-- ==== Proof.lean ====
/-
  The certificate of an edge-convolution block: for every edge, a linear layer of the joined features of its target and
  source node, batch normalisation over all 800000 edges, the clamp at zero, and the mean of the edge activations over
  each target node.

  The kernel program gathers the two operand arrays on the host, forms the linear layer block by block on the matrix
  unit while accumulating each channel's sum and sum of squares across the grid, derives a per-channel scale and shift
  from those two rows (variance as mean of squares minus squared mean), applies them and the clamp in a second region,
  and aggregates on the host.  The reference joins the two gathered arrays, contracts once, and normalises through the
  mean squared deviation.  Over finite reals the two are the same function of the six arguments:
    · the 256-term contraction of the joined row splits into the two 128-term contractions;
    · the mean of squares minus the squared mean is the mean squared deviation, the divisor being the number of edges;
    · h·(g·r) + (bt − μ·(g·r)) = ((h − μ)·r)·g + bt, r the inverse root of variance plus a positive offset;
  and both programs end with the same segment mean of the activation array.  The three frames are the generated frame
  proofs (the reference's: its generated run with the results dropped); the idealization rewrote nothing.
-/
import proofs.«145881_j9715216023597_1_alg».proof.Defs
import proofs.«145881_j9715216023597_1_alg».proof.Proof.Gen.Kernel
import proofs.«145881_j9715216023597_1_alg».proof.Proof.Gen.Kernel.Skeleton
import proofs.«145881_j9715216023597_1_alg».proof.Proof.Gen.Kernel.Launch
import proofs.«145881_j9715216023597_1_alg».proof.Proof.Gen.Kernel.Points
import proofs.«145881_j9715216023597_1_alg».proof.Proof.Gen.Kernel.Frame
import proofs.«145881_j9715216023597_1_alg».proof.Proof.Gen.KernelIdeal
import proofs.«145881_j9715216023597_1_alg».proof.Proof.Gen.KernelIdeal.Skeleton
import proofs.«145881_j9715216023597_1_alg».proof.Proof.Gen.KernelIdeal.Launch
import proofs.«145881_j9715216023597_1_alg».proof.Proof.Gen.KernelIdeal.Points
import proofs.«145881_j9715216023597_1_alg».proof.Proof.Gen.KernelIdeal.Frame
import proofs.«145881_j9715216023597_1_alg».proof.Proof.Gen.ReferenceIdeal
import proofs.«145881_j9715216023597_1_alg».proof.Proof.Gen.ReferenceIdeal.Run
import proofs.«145881_j9715216023597_1_alg».proof.Proof.Gen.ReferenceIdeal.Read
import proofs.«145881_j9715216023597_1_alg».proof.Proof.Gen.Pre_finite_inputs
import proofs.«145881_j9715216023597_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run, the two results dropped. -/
theorem frame_r : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the six arguments, the kernel's finite, both programs end with the same aggregated
    array and the same activation array: the activation arrays agree entry by entry (`Bridge.act_eq`), and each
    program's aggregated array is the one segment mean of its activation array. -/
theorem algebraic : Cert.algebraic_KernelIdeal_ReferenceIdeal := by
  intro m ρ m' ρ' hpre hagree
  refine ⟨fun c => Cert.KernelIdeal.Fold.tail (Cert.KernelIdeal.Fold.EI m c)
      (Cert.KernelIdeal.Fold.actK (Cert.KernelIdeal.Fold.X m c) (Cert.KernelIdeal.Fold.EI m c) (Cert.KernelIdeal.Fold.Wt m c)
        (Cert.KernelIdeal.Fold.B1 m c) (Cert.KernelIdeal.Fold.Gm m c) (Cert.KernelIdeal.Fold.Bt m c)),
    fun c => Cert.KernelIdeal.Fold.actK (Cert.KernelIdeal.Fold.X m c) (Cert.KernelIdeal.Fold.EI m c) (Cert.KernelIdeal.Fold.Wt m c)
        (Cert.KernelIdeal.Fold.B1 m c) (Cert.KernelIdeal.Fold.Gm m c) (Cert.KernelIdeal.Fold.Bt m c),
    Cert.KernelIdeal.Fold.run m ρ, ?_⟩
  refine (θ_run Cert.ReferenceIdeal.defs _ _).mono (fun r h c => ?_) (Cert.ReferenceIdeal.Value.run (F := Ideal) m' ρ')
  have hact := Cert.Proof.Bridge.act_eq m m' hpre c (hagree c).1 (hagree c).2.1 (hagree c).2.2.1 (hagree c).2.2.2.1
    (hagree c).2.2.2.2.1 (hagree c).2.2.2.2.2
  refine ⟨(h c).1.trans ?_, (h c).2.1.trans hact, (h c).2.2⟩
  refine (Cert.ReferenceIdeal.RefVal.out_eq m' c).trans ?_
  rw [hact, show Cert.ReferenceIdeal.RefVal.EI m' c = Cert.KernelIdeal.Fold.EI m c from (hagree c).2.1]
  exact Cert.Proof.Bridge.tail_eq _ _

theorem claim : Cert.Claim := ⟨Cert.Kernel.Gen.facts, Cert.KernelIdeal.Gen.facts, Cert.ReferenceIdeal.Gen.facts, Cert.Pre_finite_inputs.Gen.facts,
  frame_k, frame_ki, frame_r, preserves, algebraic⟩

end Cert.Proof

end
